-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64x16 : Shape := ⟨3, ![50000, 64, 16]⟩
abbrev S2x800000 : Shape := ⟨2, ![2, 800000]⟩
abbrev S800000x16 : Shape := ⟨2, ![800000, 16]⟩
abbrev S64x64 : Shape := ⟨2, ![64, 64]⟩
abbrev S64 : Shape := ⟨1, ![64]⟩
abbrev S_ : Shape := ⟨0, ![]⟩

class Facts : Prop where
  bcast_S_S50000x64x16 : S_.BroadcastsInDim S50000x64x16 (![] : Fin 0 → Fin S50000x64x16.rank)
  reducesTo_S50000x64x16_S_d0_1_2 : S50000x64x16.ReducesTo [0, 1, 2] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S64x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_v33

def fn {F : FTy → Type} [FloatOps F] (main_arg0 : FVec F S50000x64x16 .f32) (main_arg1 : IVec S2x800000 32) (main_arg2 : FVec F S800000x16 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) : IVec S_ 1 :=
  let main_v0 : FVec F S50000x64x16 .f32 := Host.absf main_arg0
  let main_cst : FVec F S_ .f32 := constant S_ .f32 0x7F800000#32
  let main_v1 : FVec F S50000x64x16 .f32 := broadcastInDim S50000x64x16 ![] bcast_S_S50000x64x16 main_cst
  let main_v2 : IVec S50000x64x16 1 := cmpf .olt main_v0 main_v1
  let main_c : IVec S_ 1 := constantI S_ 1 1#1
  let main_v3 : IVec S_ 1 := (fun x v => Host.reduce IntOp.andi x v reducesTo_S50000x64x16_S_d0_1_2 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S50000x64x16 : Shape := ⟨3, ![50000, 64, 16]⟩
abbrev S2x800000 : Shape := ⟨2, ![2, 800000]⟩
abbrev S800000x16 : Shape := ⟨2, ![800000, 16]⟩
abbrev S64x64 : Shape := ⟨2, ![64, 64]⟩
abbrev S64 : Shape := ⟨1, ![64]⟩
abbrev S50000x64 : Shape := ⟨2, ![50000, 64]⟩
abbrev S200x64x16 : Shape := ⟨3, ![200, 64, 16]⟩
abbrev S200x64 : Shape := ⟨2, ![200, 64]⟩
abbrev S800000x1 : Shape := ⟨2, ![800000, 1]⟩
abbrev S800000 : Shape := ⟨1, ![800000]⟩
abbrev S1x800000 : Shape := ⟨2, ![1, 800000]⟩
abbrev S_ : Shape := ⟨0, ![]⟩
abbrev S50000 : Shape := ⟨1, ![50000]⟩
abbrev S50000x1 : Shape := ⟨2, ![50000, 1]⟩
abbrev S1x64 : Shape := ⟨2, ![1, 64]⟩
abbrev S5000x64 : Shape := ⟨2, ![5000, 64]⟩
abbrev S800000x64 : Shape := ⟨2, ![800000, 64]⟩
abbrev S5000x1 : Shape := ⟨2, ![5000, 1]⟩

abbrev nBuf : Space → Nat
  | .hbm => 95
  | .vmem => 38
  | .smem => 0
  | _ => 0

abbrev bufTy : (tb : Table) → Fin (tcTables nBuf tb) → BufTy
  | .hbm, ⟨0, _⟩ => ⟨S50000x64x16, .f32⟩
  | .hbm, ⟨1, _⟩ => ⟨S2x800000, .i32⟩
  | .hbm, ⟨2, _⟩ => ⟨S800000x16, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S50000x64, .f32⟩
  | .hbm, ⟨10, _⟩ => ⟨S800000x1, .f32⟩
  | .hbm, ⟨11, _⟩ => ⟨S800000, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000, .f32⟩
  | .hbm, ⟨42, _⟩ => ⟨S800000, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000, .f32⟩
  | .hbm, ⟨52, _⟩ => ⟨S800000, .f32⟩
  | .hbm, ⟨53, _⟩ => ⟨S50000, .f32⟩
  | .hbm, ⟨54, _⟩ => ⟨S50000x1, .f32⟩
  | .hbm, ⟨55, _⟩ => ⟨S1x64, .f32⟩
  | .hbm, ⟨56, _⟩ => ⟨S1x64, .f32⟩
  | .hbm, ⟨57, _⟩ => ⟨S1x64, .f32⟩
  | .hbm, ⟨58, _⟩ => ⟨S50000x64, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x64, .f32⟩
  | .hbm, ⟨68, _⟩ => ⟨S800000x1, .f32⟩
  | .hbm, ⟨69, _⟩ => ⟨S800000x64, .f32⟩
  | .hbm, ⟨70, _⟩ => ⟨S800000x64, .f32⟩
  | .hbm, ⟨71, _⟩ => ⟨S_, .f32⟩
  | .hbm, ⟨72, _⟩ => ⟨S50000x64, .f32⟩
  | .hbm, ⟨73, _⟩ => ⟨S800000x1, .i32⟩
  | .hbm, ⟨74, _⟩ => ⟨S50000x64, .f32⟩
  | .hbm, ⟨75, _⟩ => ⟨S50000x64, .f32⟩
  | .hbm, ⟨76, _⟩ => ⟨S50000x64, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x64, .f32⟩
  | .hbm, ⟨86, _⟩ => ⟨S800000x1, .f32⟩
  | .hbm, ⟨87, _⟩ => ⟨S800000x64, .f32⟩
  | .hbm, ⟨88, _⟩ => ⟨S800000x64, .f32⟩
  | .hbm, ⟨89, _⟩ => ⟨S_, .f32⟩
  | .hbm, ⟨90, _⟩ => ⟨S50000x64, .f32⟩
  | .hbm, ⟨91, _⟩ => ⟨S800000x1, .i32⟩
  | .hbm, ⟨92, _⟩ => ⟨S50000x64, .f32⟩
  | .hbm, ⟨93, _⟩ => ⟨S50000x64, .f32⟩
  | .hbm, ⟨94, _⟩ => ⟨S50000x64, .f32⟩
  | .local _ .vmem, ⟨0, _⟩ => ⟨S200x64x16, .f32⟩
  | .local _ .vmem, ⟨1, _⟩ => ⟨S200x64x16, .f32⟩
  | .local _ .vmem, ⟨2, _⟩ => ⟨S200x64, .f32⟩
  | .local _ .vmem, ⟨3, _⟩ => ⟨S200x64, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x1, .f32⟩
  | .local _ .vmem, ⟨28, _⟩ => ⟨S5000x1, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S64x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | _, _ => ⟨S50000x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_12 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc4_stg3_0 : Ref sig .tc := ⟨.vmem, 29, rfl⟩
abbrev cc4_stg4_0 : Ref sig .tc := ⟨.vmem, 30, rfl⟩
abbrev cc4_stg4_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem4_0 : DmaSem sig := 16
abbrev cc2_sem4_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28
abbrev cc4_sem3_0 : DmaSem sig := 29
abbrev cc4_sem4_0 : DmaSem sig := 30
abbrev cc4_sem4_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem3_1 : DmaSem sig := 37

abbrev nD : Nat := 1
abbrev τ : Topo := Topo.v7x

variable {F : FTy → Type} [FloatOps F]

abbrev grid0 : Pipeline.Grid := ⟨1, ![250], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x64x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  inb_S200x64x16_S200x64x16_0_0_0 : ∀ a, (![0, 0, 0] : Fin 3 → Nat) a + S200x64x16.size a ≤ S200x64x16.size a
  h_S200x64x16 : 0 < S200x64x16.numel
  reduces_S200x64x16_S200x64 : S200x64x16.Reduces [2] S200x64
  inb_S200x64_S200x64_0_0 : ∀ a, (![0, 0] : Fin 2 → Nat) a + S200x64.size a ≤ S200x64.size a
  h_S200x64 : 0 < S200x64.numel
  slices_S800000x16_S800000x1_0_15 : S800000x16.Slices ![0, 15] S800000x1
  shapeCasts_S800000x1_S800000 : S800000x1.ShapeCasts S800000
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S50000_S50000x1_0 : S50000.BroadcastsInDim S50000x1 (![0] : Fin 1 → Fin S50000x1.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x64x16.size a ≤ S50000x64x16.size a
  hwx0_0 : ∀ i : grid0.Coords, EltTy.bits .f32 = 32 ∨ (Rect.block (s := S50000x64x16) S200x64x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x64.size a ≤ S50000x64.size a
  hwx0_1 : ∀ i : grid0.Coords, EltTy.bits .f32 = 32 ∨ (Rect.block (s := S50000x64) S200x64.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S50000x64.size a
  hwx4_4 : ∀ i : grid4.Coords, EltTy.bits .f32 = 32 ∨ (Rect.block (s := S50000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S50000x64.size a
  hwx5_3 : ∀ i : grid5.Coords, EltTy.bits .f32 = 32 ∨ (Rect.block (s := S50000x64) S5000x64.size (cc5_transform_3 i) (hinb5_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S200x64x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S200x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v51) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v52) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v66) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v34) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v36) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v67) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v67) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v37) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v68) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x64x16 : Shape := ⟨3, ![50000, 64, 16]⟩
abbrev S2x800000 : Shape := ⟨2, ![2, 800000]⟩
abbrev S800000x16 : Shape := ⟨2, ![800000, 16]⟩
abbrev S64x64 : Shape := ⟨2, ![64, 64]⟩
abbrev S64 : Shape := ⟨1, ![64]⟩
abbrev S_ : Shape := ⟨0, ![]⟩
abbrev S50000x64 : Shape := ⟨2, ![50000, 64]⟩
abbrev S800000x1 : Shape := ⟨2, ![800000, 1]⟩
abbrev S800000 : Shape := ⟨1, ![800000]⟩
abbrev S1x800000 : Shape := ⟨2, ![1, 800000]⟩
abbrev S50000 : Shape := ⟨1, ![50000]⟩
abbrev S800000x64 : Shape := ⟨2, ![800000, 64]⟩
abbrev S50000x1 : Shape := ⟨2, ![50000, 1]⟩
abbrev S1x64 : Shape := ⟨2, ![1, 64]⟩

abbrev nBuf : Space → Nat
  | .hbm => 151
  | .vmem => 0
  | .smem => 0
  | _ => 0

abbrev hbmTy0_0 (i : Nat) : BufTy := match i % 128 with
  | 0 => ⟨S50000x64x16, .f32⟩
  | 1 => ⟨S2x800000, .i32⟩
  | 2 => ⟨S800000x16, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S_, .f32⟩
  | 10 => ⟨S50000x64, .f32⟩
  | 11 => ⟨S_, .f32⟩
  | 12 => ⟨S50000x64, .f32⟩
  | 13 => ⟨S50000x64, .f32⟩
  | 14 => ⟨S800000x1, .f32⟩
  | 15 => ⟨S800000, .f32⟩
  | 16 => ⟨S1x800000, .i32⟩
  | 17 => ⟨S800000, .i32⟩
  | 18 => ⟨S1x800000, .i32⟩
  | 19 => ⟨S800000, .i32⟩
  | 20 => ⟨S50000x64, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S_, .f32⟩
  | 29 => ⟨S50000, .f32⟩
  | 30 => ⟨S50000, .i1⟩
  | 31 => ⟨S_, .f32⟩
  | 32 => ⟨S50000, .f32⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000, .f32⟩
  | 57 => ⟨S800000, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x64, .f32⟩
  | 67 => ⟨S800000x1, .f32⟩
  | 68 => ⟨S800000x64, .f32⟩
  | 69 => ⟨S800000x64, .f32⟩
  | 70 => ⟨S_, .f32⟩
  | 71 => ⟨S50000x64, .f32⟩
  | 72 => ⟨S800000x1, .i32⟩
  | 73 => ⟨S50000x64, .f32⟩
  | 74 => ⟨S50000, .f32⟩
  | 75 => ⟨S50000x1, .f32⟩
  | 76 => ⟨S50000x64, .f32⟩
  | 77 => ⟨S50000x64, .f32⟩
  | 78 => ⟨S50000x64, .f32⟩
  | 79 => ⟨S1x64, .f32⟩
  | 80 => ⟨S50000x64, .f32⟩
  | 81 => ⟨S50000x64, .f32⟩
  | 82 => ⟨S_, .f32⟩
  | 83 => ⟨S50000x64, .f32⟩
  | 84 => ⟨S50000x64, .f32⟩
  | 85 => ⟨S50000x64, .f32⟩
  | 86 => ⟨S_, .f32⟩
  | 87 => ⟨S50000, .f32⟩
  | 88 => ⟨S800000x1, .i32⟩
  | 89 => ⟨S50000, .f32⟩
  | 90 => ⟨S_, .f32⟩
  | 91 => ⟨S50000, .f32⟩
  | 92 => ⟨S50000, .f32⟩
  | 93 => ⟨S_, .f32⟩
  | 94 => ⟨S50000, .f32⟩
  | 95 => ⟨S50000, .i1⟩
  | 96 => ⟨S_, .f32⟩
  | 97 => ⟨S50000, .f32⟩
  | 98 => ⟨S50000, .f32⟩
  | 99 => ⟨S_, .f32⟩
  | 100 => ⟨S_, .f32⟩
  | 101 => ⟨S50000, .f32⟩
  | 102 => ⟨S50000, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000, .f32⟩
  | 112 => ⟨S800000, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000, .f32⟩
  | 122 => ⟨S800000, .f32⟩
  | 123 => ⟨S_, .i32⟩
  | 124 => ⟨S800000, .i32⟩
  | 125 => ⟨S800000, .i1⟩
  | 126 => ⟨S_, .i32⟩
  | 127 => ⟨S800000, .i32⟩
  | _ => ⟨S50000x64x16, .f32⟩

abbrev hbmTy0_1 (i : Nat) : BufTy := match i % 128 with
  | 0 => ⟨S800000, .i32⟩
  | 1 => ⟨S800000, .i32⟩
  | 2 => ⟨S800000x1, .i32⟩
  | 3 => ⟨S800000x64, .f32⟩
  | 4 => ⟨S800000x1, .f32⟩
  | 5 => ⟨S800000x64, .f32⟩
  | 6 => ⟨S800000x64, .f32⟩
  | 7 => ⟨S_, .f32⟩
  | 8 => ⟨S50000x64, .f32⟩
  | 9 => ⟨S800000x1, .i32⟩
  | 10 => ⟨S50000x64, .f32⟩
  | 11 => ⟨S50000, .f32⟩
  | 12 => ⟨S50000x1, .f32⟩
  | 13 => ⟨S50000x64, .f32⟩
  | 14 => ⟨S50000x64, .f32⟩
  | 15 => ⟨S50000x64, .f32⟩
  | 16 => ⟨S1x64, .f32⟩
  | 17 => ⟨S50000x64, .f32⟩
  | 18 => ⟨S50000x64, .f32⟩
  | 19 => ⟨S50000x64, .f32⟩
  | 20 => ⟨S1x64, .f32⟩
  | 21 => ⟨S50000x64, .f32⟩
  | 22 => ⟨S50000x64, .f32⟩
  | _ => ⟨S50000x64x16, .f32⟩

abbrev hbmTy (i : Nat) : BufTy := match i / 128 with
  | 0 => hbmTy0_0 i
  | 1 => hbmTy0_1 i
  | _ => ⟨S50000x64x16, .f32⟩

abbrev bufTy : (tb : Table) → Fin (tcTables nBuf tb) → BufTy
  | .hbm, ⟨i, _⟩ => hbmTy i
  | _, _ => ⟨S50000x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_v19 : Ref sig .tc := ⟨.hbm, 37, rfl⟩
abbrev main_c : Ref sig .tc := ⟨.hbm, 38, rfl⟩
abbrev main_v20 : Ref sig .tc := ⟨.hbm, 39, rfl⟩
abbrev main_v21 : Ref sig .tc := ⟨.hbm, 40, rfl⟩
abbrev main_c_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_7 : Ref sig .tc := ⟨.hbm, 48, rfl⟩
abbrev main_v28 : Ref sig .tc := ⟨.hbm, 49, rfl⟩
abbrev main_v29 : Ref sig .tc := ⟨.hbm, 50, rfl⟩
abbrev main_c_8 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_9 : Ref sig .tc := ⟨.hbm, 58, rfl⟩
abbrev main_v36 : Ref sig .tc := ⟨.hbm, 59, rfl⟩
abbrev main_v37 : Ref sig .tc := ⟨.hbm, 60, rfl⟩
abbrev main_c_10 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call1_cst : Ref sig .tc := ⟨.hbm, 82, rfl⟩
abbrev main_call1_v0 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩
abbrev main_v63 : Ref sig .tc := ⟨.hbm, 92, rfl⟩
abbrev main_cst_14 : Ref sig .tc := ⟨.hbm, 93, rfl⟩
abbrev main_v64 : Ref sig .tc := ⟨.hbm, 94, rfl⟩
abbrev main_v65 : Ref sig .tc := ⟨.hbm, 95, rfl⟩
abbrev main_cst_15 : Ref sig .tc := ⟨.hbm, 96, rfl⟩
abbrev main_v66 : Ref sig .tc := ⟨.hbm, 97, rfl⟩
abbrev main_v67 : Ref sig .tc := ⟨.hbm, 98, rfl⟩
abbrev main_cst_16 : Ref sig .tc := ⟨.hbm, 99, rfl⟩
abbrev main_call2_v0 : Ref sig .tc := ⟨.hbm, 100, rfl⟩
abbrev main_call2_v1 : Ref sig .tc := ⟨.hbm, 101, rfl⟩
abbrev main_v68 : Ref sig .tc := ⟨.hbm, 102, rfl⟩
abbrev main_c_17 : Ref sig .tc := ⟨.hbm, 103, rfl⟩
abbrev main_v69 : Ref sig .tc := ⟨.hbm, 104, rfl⟩
abbrev main_v70 : Ref sig .tc := ⟨.hbm, 105, rfl⟩
abbrev main_c_18 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_c_19 : Ref sig .tc := ⟨.hbm, 113, rfl⟩
abbrev main_v77 : Ref sig .tc := ⟨.hbm, 114, rfl⟩
abbrev main_v78 : Ref sig .tc := ⟨.hbm, 115, rfl⟩
abbrev main_c_20 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_c_21 : Ref sig .tc := ⟨.hbm, 123, rfl⟩
abbrev main_v85 : Ref sig .tc := ⟨.hbm, 124, rfl⟩
abbrev main_v86 : Ref sig .tc := ⟨.hbm, 125, rfl⟩
abbrev main_c_22 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_23 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩

abbrev nD : Nat := 1
abbrev τ : Topo := Topo.v7x

variable {F : FTy → Type} [FloatOps F]

class Facts₀ : Prop where
  reducesTo_S50000x64x16_S50000x64_d2 : S50000x64x16.ReducesTo [2] S50000x64
  h_S_ : 0 < S_.numel
  bcast_S_S50000x64 : S_.BroadcastsInDim S50000x64 (![] : Fin 0 → Fin S50000x64.rank)
  slices_S800000x16_S800000x1_0_15 : S800000x16.Slices ![0, 15] S800000x1
  shapeCasts_S800000x1_S800000 : S800000x1.ShapeCasts S800000
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x64_S64x64_S50000x64_1_0_0_1_n_n_wf : DotDims.WF S50000x64 S64x64 S50000x64 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Spec.lean ====
/-
  The mathematics both programs compute, stated once over the extended reals and entry by entry: a row mean over the
  last axis, a matrix product with a 64 × 64 weight, the self-loop combination of one graph-convolution layer
  (aggregate + projection · squared inverse-root degree + bias, with or without the positive part), and the affine
  output head. The irregular part of a layer (degrees, edge normalisation, gather and scatter-add) is the same
  host computation in both programs and is never opened.

  Each function is given at a (node, channel) pair of coordinates and then as an array; `*_ix2` reads the array
  back at coordinates.
-/
import Idealize.ShloMosaic.PureOps.Ideal
import Idealize.ShloMosaic.Lib.ValueIdx

noncomputable section

namespace Cert.Spec

open Idealize.ShloMosaic Idealize.ShloMosaic.ValueIdx

/-- Node features over time: 50000 nodes, 64 channels, 16 time steps. -/
abbrev SX : Shape := ⟨3, ![50000, 64, 16]⟩
/-- A node-by-channel matrix. -/
abbrev SN : Shape := ⟨2, ![50000, 64]⟩
/-- A weight matrix. -/
abbrev SW : Shape := ⟨2, ![64, 64]⟩
/-- One value per node, as a column. -/
abbrev SC : Shape := ⟨2, ![50000, 1]⟩
/-- One value per channel, as a row. -/
abbrev SR : Shape := ⟨2, ![1, 64]⟩

/-- The node coordinate of an entry of a node-by-channel matrix. -/
abbrev nodeOf (i : SN.Idx) : Fin 50000 := ⟨(i 0).val, (i 0).isLt⟩
/-- Its channel coordinate. -/
abbrev chanOf (i : SN.Idx) : Fin 64 := ⟨(i 1).val, (i 1).isLt⟩

theorem nodeOf_ix2 (n : Fin 50000) (c : Fin 64) : nodeOf (ix2 n c) = n := rfl
theorem chanOf_ix2 (n : Fin 50000) (c : Fin 64) : chanOf (ix2 n c) = c := rfl

/-- The mean over time of entry (n, c): the sum of its 16 time steps divided by 16. -/
def rowMeanAt (x : SX.Idx → EReal) (n : Fin 50000) (c : Fin 64) : EReal :=
  Ideal.div (∑ k : Fin 16, x (ix3 n c k)) (Ideal.ofBits .f32 0x41800000#32)
def rowMean (x : SX.Idx → EReal) : SN.Idx → EReal := fun i => rowMeanAt x (nodeOf i) (chanOf i)
theorem rowMean_ix2 (x : SX.Idx → EReal) (n : Fin 50000) (c : Fin 64) : rowMean x (ix2 n c) = rowMeanAt x n c := rfl

/-- Entry (n, c) of the product of a node-by-channel matrix with a weight: the sum over k of a(n, k) · w(k, c). -/
def matProdAt (a : SN.Idx → EReal) (w : SW.Idx → EReal) (n : Fin 50000) (c : Fin 64) : EReal :=
  ∑ k : Fin 64, a (ix2 n k) * w (ix2 k c)
def matProd (a : SN.Idx → EReal) (w : SW.Idx → EReal) : SN.Idx → EReal := fun i => matProdAt a w (nodeOf i) (chanOf i)
theorem matProd_ix2 (a : SN.Idx → EReal) (w : SW.Idx → EReal) (n : Fin 50000) (c : Fin 64) :
    matProd a w (ix2 n c) = matProdAt a w n c := rfl

/-- One layer's combination at (n, c): the aggregated messages plus the node's own projection scaled by its squared
    inverse-root degree, plus the bias of the channel. -/
def combineAt (agg h : SN.Idx → EReal) (d2 : SC.Idx → EReal) (b : SR.Idx → EReal) (n : Fin 50000) (c : Fin 64) : EReal :=
  agg (ix2 n c) + h (ix2 n c) * d2 (ix2 n 0) + b (ix2 0 c)
def combine (agg h : SN.Idx → EReal) (d2 : SC.Idx → EReal) (b : SR.Idx → EReal) : SN.Idx → EReal :=
  fun i => combineAt agg h d2 b (nodeOf i) (chanOf i)
theorem combine_ix2 (agg h : SN.Idx → EReal) (d2 : SC.Idx → EReal) (b : SR.Idx → EReal) (n : Fin 50000) (c : Fin 64) :
    combine agg h d2 b (ix2 n c) = combineAt agg h d2 b n c := rfl

/-- The same followed by the positive part. -/
def combineReluAt (agg h : SN.Idx → EReal) (d2 : SC.Idx → EReal) (b : SR.Idx → EReal) (n : Fin 50000) (c : Fin 64) : EReal :=
  max (combineAt agg h d2 b n c) (Ideal.ofBits .f32 0x00000000#32)
def combineRelu (agg h : SN.Idx → EReal) (d2 : SC.Idx → EReal) (b : SR.Idx → EReal) : SN.Idx → EReal :=
  fun i => combineReluAt agg h d2 b (nodeOf i) (chanOf i)
theorem combineRelu_ix2 (agg h : SN.Idx → EReal) (d2 : SC.Idx → EReal) (b : SR.Idx → EReal) (n : Fin 50000) (c : Fin 64) :
    combineRelu agg h d2 b (ix2 n c) = combineReluAt agg h d2 b n c := rfl

/-- The output head at (n, c): a matrix product plus the bias of the channel. -/
def affineAt (a : SN.Idx → EReal) (w : SW.Idx → EReal) (b : SR.Idx → EReal) (n : Fin 50000) (c : Fin 64) : EReal :=
  matProdAt a w n c + b (ix2 0 c)
def affine (a : SN.Idx → EReal) (w : SW.Idx → EReal) (b : SR.Idx → EReal) : SN.Idx → EReal :=
  fun i => affineAt a w b (nodeOf i) (chanOf i)
theorem affine_ix2 (a : SN.Idx → EReal) (w : SW.Idx → EReal) (b : SR.Idx → EReal) (n : Fin 50000) (c : Fin 64) :
    affine a w b (ix2 n c) = affineAt a w b n c := rfl

end Cert.Spec

end
-- ==== Proof.Reg0.lean ====
/-
  The temporal mean. The kernel walks the 50000 nodes in 250 blocks of 200; at each block it sums the 16 time
  steps of every (node, channel) entry (from a zero accumulator) and divides by 16. Every entry of a block is
  the mean of the matching entry of the whole array, the 250 blocks tile the nodes, and the array the region leaves
  is the row mean.
-/
import proofs.«426108_j58506044506790_3_alg».proof.Proof.Gen.KernelIdeal.Frame
import proofs.«426108_j58506044506790_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg0

open Idealize.ShloMosaic Idealize.ShloMosaic.TcCoe Idealize.SL.Sem Idealize.ShloMosaic.ValueIdx
open Idealize.ShloMosaic.Pipeline (Dat)
open Cert.KernelIdeal Cert.KernelIdeal.Gen

/-! ## The mean of one block -/

/-- A sum over the last axis of a [200, 64, 16] block from the zero accumulator, at entry (p, q): the sum of its 16
    time steps. -/
theorem sum_apply (x0 : FVec Ideal S200x64x16 .f32) (h : S200x64x16.Reduces [2] S200x64) (hφ : FKind.Formats .f32)
    (hacc : (0x00000000#32 : BitVec 32) = 0x00000000#32) (p : Fin 200) (q : Fin 64) :
    multiReduction .add [2] S200x64 x0 0x00000000#32 h hφ hacc (ix2 p q) = ∑ k : Fin 16, x0 (ix3 p q k) := by
  refine (Ideal.multiReduction_add_single x0 0x00000000#32 h hφ hacc (ix2 p q)).trans ?_
  refine Finset.sum_congr rfl fun k _ => congrArg x0 (funext fun a => Fin.ext ?_)
  match a with
  | ⟨0, _⟩ => rfl
  | ⟨1, _⟩ => rfl
  | ⟨2, _⟩ => rfl

/-- The body's value at entry (p, q) of its block: the sum of the 16 time steps divided by 16. -/
theorem pay_apply (x0 : Vec Ideal S200x64x16 .f32) (p : Fin 200) (q : Fin 64) :
    k0_pay1 (F := Ideal) x0 (ix2 p q) = Ideal.div (∑ k : Fin 16, x0 (ix3 p q k)) (Ideal.ofBits .f32 0x41800000#32) := by
  unfold k0_pay1
  dsimp only
  rw [ValueIdx.divf_apply]
  exact congrArg (fun z => Ideal.div z (Ideal.ofBits .f32 0x41800000#32)) (sum_apply x0 _ _ _ p q)

/-! ## From the blocks to the array -/

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the 250 points: the input block and the output block are the point's own. -/
theorem idx_facts : ∀ t : Fin cfg0.N, win0_0.index t (0 : Fin 3) = t.val ∧ win0_0.index t (1 : Fin 3) = 0 ∧ win0_0.index t (2 : Fin 3) = 0
    ∧ win0_1.index t (0 : Fin 2) = t.val ∧ win0_1.index t (1 : Fin 2) = 0 :=
  (by decide +kernel : ∀ t : Fin grid0.N, _)

/-- What point `t` writes back is block `t` of the row mean of the array the region finds. -/
theorem flushed_eq (c : Dev nD) (t : Fin cfg0.N) :
    (dat0 (F := Ideal) V c).flushed 1 t
      = ((cfg0.win 1).blk t).view.read (Elt Ideal) (Cert.Spec.rowMean (V c main_arg0)) := by
  show (cfg0.win 1).cut (grid0.coords t) ((dat0 V c).after 1 t) = _
  rw [after0_1]
  unfold out0_1
  rw [View.canon_unit_zero hz2]
  simp only [View.ld_unit_zero (S := S200x64x16) hz3]
  obtain ⟨e0, e1, e2, e3, e4⟩ := idx_facts t
  funext j
  obtain ⟨p, q, rfl⟩ : ∃ (p : Fin 200) (q : Fin 64), j = ix2 p q := ⟨j 0, j 1, eq_ix2 j⟩
  have ht : t.val < 250 := t.isLt
  have hemb : ((cfg0.win 1).blk t).view.emb (ix2 p q) = ix2 (n0 := 50000) (n1 := 64) ⟨t.val * 200 + p.val, by omega⟩ q := by
    funext a; apply Fin.ext
    match a with
    | ⟨0, _⟩ => show win0_1.index t (0 : Fin 2) * 200 + 1 * p.val = t.val * 200 + p.val; omega
    | ⟨1, _⟩ => show win0_1.index t (1 : Fin 2) * 64 + 1 * q.val = q.val; omega
  show k0_pay1 (iblk0 V c 0 t) (ix2 p q) = Cert.Spec.rowMean (V c main_arg0) (((cfg0.win 1).blk t).view.emb (ix2 p q))
  rw [hemb, Cert.Spec.rowMean_ix2, pay_apply]
  unfold Cert.Spec.rowMeanAt
  refine congrArg (Ideal.div · _) (Finset.sum_congr rfl fun k _ => ?_)
  show V c main_arg0 (((cfg0.win 0).blk t).view.emb (ix3 p q k)) = _
  refine congrArg _ (funext fun a => Fin.ext ?_)
  match a with
  | ⟨0, _⟩ => show win0_0.index t (0 : Fin 3) * 200 + 1 * p.val = t.val * 200 + p.val; omega
  | ⟨1, _⟩ => show win0_0.index t (1 : Fin 3) * 64 + 1 * q.val = q.val; omega
  | ⟨2, _⟩ => show win0_0.index t (2 : Fin 3) * 16 + 1 * k.val = k.val; omega

/-- An index of the array is in point `t`'s block iff each coordinate is in the block's range on its axis. -/
theorem mem_blk (t : Fin cfg0.N) (i : S50000x64.Idx) :
    i ∈ ((cfg0.win 1).blk t).view.set ↔ ∀ a : Fin 2, win0_1.index t a * S200x64.size a ≤ (i a).val ∧ (i a).val < win0_1.index t a * S200x64.size a + S200x64.size a := by
  show i ∈ ((View.whole main_v0).slice (win0_1.rect t)).set ↔ _
  rw [View.set_slice_whole, Rect.mem_set_unit]
  exact Iff.rfl

/-- Every node lies in the block of the point numbered by its number divided by 200. -/
theorem cover (i : S50000x64.Idx) : ∃ t : Fin cfg0.N, (cfg0.win 1).flush t = true ∧ i ∈ ((cfg0.win 1).blk t).view.set := by
  have hi0 : (i 0).val < 50000 := (i 0).isLt
  have hi1 : (i 1).val < 64 := (i 1).isLt
  refine ⟨⟨(i 0).val / 200, by rw [show cfg0.N = 250 from N_0]; omega⟩, flush0_1 _, ?_⟩
  rw [mem_blk]
  obtain ⟨e0, e1, e2, e3, e4⟩ := idx_facts ⟨(i 0).val / 200, by rw [show cfg0.N = 250 from N_0]; omega⟩
  intro a
  match a with
  | ⟨0, _⟩ => show win0_1.index _ (0 : Fin 2) * 200 ≤ (i 0).val ∧ (i 0).val < win0_1.index _ (0 : Fin 2) * 200 + 200; rw [e3]; show (i 0).val / 200 * 200 ≤ (i 0).val ∧ (i 0).val < (i 0).val / 200 * 200 + 200; omega
  | ⟨1, _⟩ => show win0_1.index _ (1 : Fin 2) * 64 ≤ (i 1).val ∧ (i 1).val < win0_1.index _ (1 : Fin 2) * 64 + 64; rw [e4]; omega

/-- The array the region leaves is the row mean of the array it finds. -/
theorem arr (c : Dev nD) :
    (dat0 (F := Ideal) V c).arrAt 1 cfg0.N = Cert.Spec.rowMean (V c main_arg0) :=
  (dat0 V c).arrAt_eq_of_cover 1 _ (fun t _ => flushed_eq V c t) cover

end Cert.KernelIdeal.Reg0

end
-- ==== Proof.Reg1.lean ====
/-
  The first dense projection. The kernel walks the 50000 rows in ten blocks of 5000; at each block it multiplies the
  block of the left matrix by the whole 64 × 64 weight (both rounded to bf16 on the way in, which changes nothing
  over the extended reals) into a zero accumulator. Every entry of a block is therefore the sum over k of
  a(row, k) · w(k, column) of the whole matrices, the ten blocks tile the rows, and the array the region leaves is
  the matrix product.
-/
import proofs.«426108_j58506044506790_3_alg».proof.Proof.Gen.KernelIdeal.Frame
import proofs.«426108_j58506044506790_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg1

open Idealize.ShloMosaic Idealize.ShloMosaic.TcCoe Idealize.SL.Sem Idealize.ShloMosaic.ValueIdx
open Idealize.ShloMosaic.Pipeline (Dat)
open Cert.KernelIdeal Cert.KernelIdeal.Gen

/-! ## The product of one block -/

theorem lhs_0 (j : S5000x64.Idx) (q : dot_S5000x64_S64x64_S5000x64_1_0_0_1_n_n.contr.Idx) :
    (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_1 (j : S5000x64.Idx) (q : dot_S5000x64_S64x64_S5000x64_1_0_0_1_n_n.contr.Idx) :
    (dot_S5000x64_S64x64_S5000x64_1_0_0_1_n_n.lhsIdx j q 1).val = (q ⟨0, by decide⟩).val :=
  dot_S5000x64_S64x64_S5000x64_1_0_0_1_n_n.lhsIdx_val_of_single rfl j q
theorem rhs_0 (j : S5000x64.Idx) (q : dot_S5000x64_S64x64_S5000x64_1_0_0_1_n_n.contr.Idx) :
    (dot_S5000x64_S64x64_S5000x64_1_0_0_1_n_n.rhsIdx j q 0).val = (q ⟨0, by decide⟩).val :=
  dot_S5000x64_S64x64_S5000x64_1_0_0_1_n_n.rhsIdx_val_of_single rfl j q
theorem rhs_1 (j : S5000x64.Idx) (q : dot_S5000x64_S64x64_S5000x64_1_0_0_1_n_n.contr.Idx) :
    (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's value at entry (p, q) of its block: the sum over k of the left block at (p, k) times the weight at (k, q). -/
theorem pay_apply (x0 : Vec Ideal S5000x64 .f32) (x1 : Vec Ideal S64x64 .f32) (p : Fin 5000) (q : Fin 64) :
    k1_pay1 (F := Ideal) x0 x1 (ix2 p q) = ∑ k : Fin 64, x0 (ix2 p k) * x1 (ix2 k q) := by
  unfold k1_pay1
  rw [shapeCast_self]
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_0 _ _
    | ⟨1, _⟩ => exact (lhs_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_0 _ _).trans hk
    | ⟨1, _⟩ => exact rhs_1 _ _)
  rw [truncf_apply, truncf_apply, el, er]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the left block and the output block are the point's own, the weight's
    block is the whole matrix. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the matrix product of the two arrays the region finds. -/
theorem flushed_eq (c : Dev nD) (t : Fin cfg1.N) :
    (dat1 (F := Ideal) V c).flushed 2 t
      = ((cfg1.win 2).blk t).view.read (Elt Ideal) (Cert.Spec.matProd (V c main_v0) (V c main_arg3)) := by
  show (cfg1.win 2).cut (grid1.coords t) ((dat1 V c).after 2 t) = _
  rw [after1_2]
  unfold out1_2
  rw [View.canon_unit_zero hz]
  simp only [View.ld_unit_zero (S := S5000x64) hz, View.ld_unit_zero (S := S64x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  have ht : t.val < 10 := t.isLt
  -- the entry's place in the whole array
  have hemb : ((cfg1.win 2).blk t).view.emb (ix2 p q) = ix2 (n0 := 50000) (n1 := 64) ⟨t.val * 5000 + p.val, by omega⟩ q := by
    funext a; apply Fin.ext
    match a with
    | ⟨0, _⟩ => show win1_2.index t (0 : Fin 2) * 5000 + 1 * p.val = t.val * 5000 + p.val; omega
    | ⟨1, _⟩ => show win1_2.index t (1 : Fin 2) * 64 + 1 * q.val = q.val; omega
  show k1_pay1 (iblk1 V c 0 t) (iblk1 V c 1 t) (ix2 p q) = Cert.Spec.matProd (V c main_v0) (V c main_arg3) (((cfg1.win 2).blk t).view.emb (ix2 p q))
  rw [hemb, Cert.Spec.matProd_ix2, pay_apply]
  unfold Cert.Spec.matProdAt
  refine Finset.sum_congr rfl fun k _ => ?_
  have h0 : iblk1 V c 0 t (ix2 p k) = V c main_v0 (ix2 (n0 := 50000) (n1 := 64) ⟨t.val * 5000 + p.val, by omega⟩ k) := by
    show V c main_v0 (((cfg1.win 0).blk t).view.emb (ix2 p k)) = _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * k.val = k.val; omega
  have h1 : iblk1 V c 1 t (ix2 k q) = V c main_arg3 (ix2 (n0 := 64) (n1 := 64) k q) := by
    show V c main_arg3 (((cfg1.win 1).blk t).view.emb (ix2 k q)) = _
    refine congrArg _ (funext fun a => Fin.ext ?_)
    match a with
    | ⟨0, _⟩ => show win1_1.index t (0 : Fin 2) * 64 + 1 * k.val = k.val; omega
    | ⟨1, _⟩ => show win1_1.index t (1 : Fin 2) * 64 + 1 * q.val = q.val; omega
  rw [h0, h1]

/-- An index of the array is in point `t`'s block iff each coordinate is in the block's range on its axis. -/
theorem mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v38).slice (win1_2.rect t)).set ↔ _
  rw [View.set_slice_whole, Rect.mem_set_unit]
  exact Iff.rfl

/-- Every row lies in the block of the point numbered by its row divided by 5000. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  refine ⟨⟨(i 0).val / 5000, by rw [show cfg1.N = 10 from N_1]; omega⟩, flush1_2 _, ?_⟩
  rw [mem_blk]
  obtain ⟨e0, e1, e2, e3, e4, e5⟩ := idx_facts ⟨(i 0).val / 5000, by rw [show cfg1.N = 10 from N_1]; omega⟩
  intro a
  match a with
  | ⟨0, _⟩ => show win1_2.index _ (0 : Fin 2) * 5000 ≤ (i 0).val ∧ (i 0).val < win1_2.index _ (0 : Fin 2) * 5000 + 5000; rw [e4]; show (i 0).val / 5000 * 5000 ≤ (i 0).val ∧ (i 0).val < (i 0).val / 5000 * 5000 + 5000; omega
  | ⟨1, _⟩ => show win1_2.index _ (1 : Fin 2) * 64 ≤ (i 1).val ∧ (i 1).val < win1_2.index _ (1 : Fin 2) * 64 + 64; rw [e5]; omega

/-- The array the region leaves is the matrix product of the two arrays it finds. -/
theorem arr (c : Dev nD) :
    (dat1 (F := Ideal) V c).arrAt 2 cfg1.N = Cert.Spec.matProd (V c main_v0) (V c main_arg3) :=
  (dat1 V c).arrAt_eq_of_cover 2 _ (fun t _ => flushed_eq V c t) cover

end Cert.KernelIdeal.Reg1

end
-- ==== Proof.Pay2.lean ====
/-
  One block of the first layer's combination, entry by entry: the aggregated messages plus the projection times the
  squared inverse-root degree of the node (a column of the block, spread over the 64 channels) plus the bias of the
  channel (a row, spread over the 5000 nodes), and then the positive part.
-/
import proofs.«426108_j58506044506790_3_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Pay2

open Idealize.ShloMosaic Idealize.ShloMosaic.TcCoe Idealize.SL.Sem Idealize.ShloMosaic.ValueIdx
open Cert.KernelIdeal Cert.KernelIdeal.Gen

/-- The column of squared inverse-root degrees spread over the channels, at entry (p, q): the column at row p. -/
theorem col_apply (x : FVec Ideal S5000x1 .f32) (p : Fin 5000) (q : Fin 64) :
    broadcastTo S5000x64 x broadcasts_S5000x1_S5000x64 (ix2 p q) = x (ix2 p 0) :=
  broadcastTo_apply x broadcasts_S5000x1_S5000x64 (ix2 p q) (ix2 p 0) (fun a => match a with
    | ⟨0, _⟩ => by show p.val = if (5000 : Nat) = 1 then 0 else p.val; rw [if_neg (by decide)]
    | ⟨1, _⟩ => by show 0 = if (1 : Nat) = 1 then 0 else q.val; rw [if_pos rfl])

/-- The bias row spread over the nodes, at entry (p, q): the row at channel q. -/
theorem row_apply (x : FVec Ideal S1x64 .f32) (p : Fin 5000) (q : Fin 64) :
    broadcastTo S5000x64 x broadcasts_S1x64_S5000x64 (ix2 p q) = x (ix2 0 q) :=
  broadcastTo_apply x broadcasts_S1x64_S5000x64 (ix2 p q) (ix2 0 q) (fun a => match a with
    | ⟨0, _⟩ => by show 0 = if (1 : Nat) = 1 then 0 else p.val; rw [if_pos rfl]
    | ⟨1, _⟩ => by show q.val = if (64 : Nat) = 1 then 0 else q.val; rw [if_neg (by decide)])

/-- The body's value at entry (p, q) of its block. -/
theorem pay_apply (v0 : Vec Ideal S5000x1 .f32) (v4 : Vec Ideal S1x64 .f32) (v8 v10 : Vec Ideal S5000x64 .f32) (p : Fin 5000) (q : Fin 64) :
    k2_pay1 (F := Ideal) v0 v4 v8 v10 (ix2 p q)
      = max (v8 (ix2 p q) + v10 (ix2 p q) * v0 (ix2 p 0) + v4 (ix2 0 q)) (Ideal.ofBits .f32 0x00000000#32) := by
  unfold k2_pay1
  simp only [shapeCast_self]
  show max (v8 (ix2 p q) + v10 (ix2 p q) * broadcastTo S5000x64 v0 broadcasts_S5000x1_S5000x64 (ix2 p q)
      + broadcastTo S5000x64 v4 broadcasts_S1x64_S5000x64 (ix2 p q)) _ = _
  rw [col_apply, row_apply]
  rfl

end Cert.KernelIdeal.Pay2

end
-- ==== Proof.Reg2.lean ====
/-
  The first layer's combination. The kernel walks the 50000 nodes in ten blocks of 5000; at each block it adds, to the
  block of aggregated messages, the block of projections times the node's squared inverse-root degree (a column,
  spread over the 64 channels) and the bias row (spread over the 5000 nodes), and takes the positive part. Every
  entry of a block is the combination of the matching entries of the whole arrays, the ten blocks tile the nodes,
  and the array the region leaves is the combination with the positive part.
-/
import proofs.«426108_j58506044506790_3_alg».proof.Proof.Gen.KernelIdeal.Frame
import proofs.«426108_j58506044506790_3_alg».proof.Proof.Spec
import proofs.«426108_j58506044506790_3_alg».proof.Proof.Pay2
import Idealize.ShloMosaic.Lib.Pipeline.Value
import Idealize.ShloMosaic.Lib.ValueIdx
import Idealize.ShloMosaic.PureOps.Ideal.Laws

set_option maxRecDepth 16384

noncomputable section

namespace Cert.KernelIdeal.Reg2

open Idealize.ShloMosaic Idealize.ShloMosaic.TcCoe Idealize.SL.Sem Idealize.ShloMosaic.ValueIdx
open Idealize.ShloMosaic.Pipeline (Dat)
open Cert.KernelIdeal Cert.KernelIdeal.Gen

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the aggregate's, the projection's, the column's and the output's blocks
    are the point's own, the bias row's block is the whole row. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point `t` writes back is block `t` of the combination of the four arrays the region finds. -/
theorem flushed_eq (c : Dev nD) (t : Fin cfg2.N) :
    (dat2 (F := Ideal) V c).flushed 4 t
      = ((cfg2.win 4).blk t).view.read (Elt Ideal)
          (Cert.Spec.combineRelu (V c main_v51) (V c main_v38) (V c main_v34) (V c main_v35)) := by
  show (cfg2.win 4).cut (grid2.coords t) ((dat2 V c).after 4 t) = _
  rw [after2_4]
  unfold out2_4
  rw [View.canon_unit_zero hz]
  simp only [View.ld_unit_zero (S := S5000x64) hz, View.ld_unit_zero (S := S5000x1) hz, View.ld_unit_zero (S := S1x64) hz]
  obtain ⟨e0, e1, e2, e3, e4, e5, e6, e7, e8, e9⟩ := idx_facts t
  funext j
  obtain ⟨p, q, rfl⟩ : ∃ (p : Fin 5000) (q : Fin 64), j = ix2 p q := ⟨j 0, j 1, eq_ix2 j⟩
  have ht : t.val < 10 := t.isLt
  have hemb : ((cfg2.win 4).blk t).view.emb (ix2 p q) = ix2 (n0 := 50000) (n1 := 64) ⟨t.val * 5000 + p.val, by omega⟩ q := by
    funext a; apply Fin.ext
    match a with
    | ⟨0, _⟩ => show win2_4.index t (0 : Fin 2) * 5000 + 1 * p.val = t.val * 5000 + p.val; omega
    | ⟨1, _⟩ => show win2_4.index t (1 : Fin 2) * 64 + 1 * q.val = q.val; omega
  show k2_pay1 (iblk2 V c 2 t) (iblk2 V c 3 t) (iblk2 V c 0 t) (iblk2 V c 1 t) (ix2 p q)
    = Cert.Spec.combineRelu (V c main_v51) (V c main_v38) (V c main_v34) (V c main_v35) (((cfg2.win 4).blk t).view.emb (ix2 p q))
  rw [hemb, Cert.Spec.combineRelu_ix2, Pay2.pay_apply]
  unfold Cert.Spec.combineReluAt Cert.Spec.combineAt
  have h0 : iblk2 V c 0 t (ix2 p q) = V c main_v51 (ix2 (n0 := 50000) (n1 := 64) ⟨t.val * 5000 + p.val, by omega⟩ q) := by
    show V c main_v51 (((cfg2.win 0).blk t).view.emb (ix2 p q)) = _
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 64 + 1 * q.val = q.val; omega
  have h1 : iblk2 V c 1 t (ix2 p q) = V c main_v38 (ix2 (n0 := 50000) (n1 := 64) ⟨t.val * 5000 + p.val, by omega⟩ q) := by
    show V c main_v38 (((cfg2.win 1).blk t).view.emb (ix2 p q)) = _
    refine congrArg _ (funext fun a => Fin.ext ?_)
    match a with
    | ⟨0, _⟩ => show win2_1.index t (0 : Fin 2) * 5000 + 1 * p.val = t.val * 5000 + p.val; omega
    | ⟨1, _⟩ => show win2_1.index t (1 : Fin 2) * 64 + 1 * q.val = q.val; omega
  have h2 : iblk2 V c 2 t (ix2 p 0) = V c main_v34 (ix2 (n0 := 50000) (n1 := 1) ⟨t.val * 5000 + p.val, by omega⟩ 0) := by
    show V c main_v34 (((cfg2.win 2).blk t).view.emb (ix2 p 0)) = _
    refine congrArg _ (funext fun a => Fin.ext ?_)
    match a with
    | ⟨0, _⟩ => show win2_2.index t (0 : Fin 2) * 5000 + 1 * p.val = t.val * 5000 + p.val; omega
    | ⟨1, _⟩ => show win2_2.index t (1 : Fin 2) * 1 + 1 * 0 = 0; omega
  have h3 : iblk2 V c 3 t (ix2 0 q) = V c main_v35 (ix2 (n0 := 1) (n1 := 64) 0 q) := by
    show V c main_v35 (((cfg2.win 3).blk t).view.emb (ix2 0 q)) = _
    refine congrArg _ (funext fun a => Fin.ext ?_)
    match a with
    | ⟨0, _⟩ => show win2_3.index t (0 : Fin 2) * 1 + 1 * 0 = 0; omega
    | ⟨1, _⟩ => show win2_3.index t (1 : Fin 2) * 64 + 1 * q.val = q.val; omega
  rw [h0, h1, h2, h3]

/-- An index of the array is in point `t`'s block iff each coordinate is in the block's range on its axis. -/
theorem mem_blk (t : Fin cfg2.N) (i : S50000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v52).slice (win2_4.rect t)).set ↔ _
  rw [View.set_slice_whole, Rect.mem_set_unit]
  exact Iff.rfl

/-- Every node lies in the block of the point numbered by its number divided by 5000. -/
theorem cover (i : S50000x64.Idx) : ∃ t : Fin cfg2.N, (cfg2.win 4).flush t = true ∧ i ∈ ((cfg2.win 4).blk t).view.set := by
  have hi0 : (i 0).val < 50000 := (i 0).isLt
  have hi1 : (i 1).val < 64 := (i 1).isLt
  refine ⟨⟨(i 0).val / 5000, by rw [show cfg2.N = 10 from N_2]; omega⟩, flush2_4 _, ?_⟩
  rw [mem_blk]
  obtain ⟨e0, e1, e2, e3, e4, e5, e6, e7, e8, e9⟩ := idx_facts ⟨(i 0).val / 5000, by rw [show cfg2.N = 10 from N_2]; omega⟩
  intro a
  match a with
  | ⟨0, _⟩ => show win2_4.index _ (0 : Fin 2) * 5000 ≤ (i 0).val ∧ (i 0).val < win2_4.index _ (0 : Fin 2) * 5000 + 5000; rw [e8]; show (i 0).val / 5000 * 5000 ≤ (i 0).val ∧ (i 0).val < (i 0).val / 5000 * 5000 + 5000; omega
  | ⟨1, _⟩ => show win2_4.index _ (1 : Fin 2) * 64 ≤ (i 1).val ∧ (i 1).val < win2_4.index _ (1 : Fin 2) * 64 + 64; rw [e9]; omega

/-- The array the region leaves is the combination, with the positive part, of the four arrays it finds. -/
theorem arr (c : Dev nD) :
    (dat2 (F := Ideal) V c).arrAt 4 cfg2.N
      = Cert.Spec.combineRelu (V c main_v51) (V c main_v38) (V c main_v34) (V c main_v35) :=
  (dat2 V c).arrAt_eq_of_cover 4 _ (fun t _ => flushed_eq V c t) cover

end Cert.KernelIdeal.Reg2

end
-- ==== Proof.Reg3.lean ====
/-
  The second dense projection. The kernel walks the 50000 rows in ten blocks of 5000; at each block it multiplies the
  block of the left matrix by the whole 64 × 64 weight (both rounded to bf16 on the way in, which changes nothing
  over the extended reals) into a zero accumulator. Every entry of a block is therefore the sum over k of
  a(row, k) · w(k, column) of the whole matrices, the ten blocks tile the rows, and the array the region leaves is
  the matrix product.
-/
import proofs.«426108_j58506044506790_3_alg».proof.Proof.Gen.KernelIdeal.Frame
import proofs.«426108_j58506044506790_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg3

open Idealize.ShloMosaic Idealize.ShloMosaic.TcCoe Idealize.SL.Sem Idealize.ShloMosaic.ValueIdx
open Idealize.ShloMosaic.Pipeline (Dat)
open Cert.KernelIdeal Cert.KernelIdeal.Gen

/-! ## The product of one block -/

theorem lhs_0 (j : S5000x64.Idx) (q : dot_S5000x64_S64x64_S5000x64_1_0_0_1_n_n.contr.Idx) :
    (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_1 (j : S5000x64.Idx) (q : dot_S5000x64_S64x64_S5000x64_1_0_0_1_n_n.contr.Idx) :
    (dot_S5000x64_S64x64_S5000x64_1_0_0_1_n_n.lhsIdx j q 1).val = (q ⟨0, by decide⟩).val :=
  dot_S5000x64_S64x64_S5000x64_1_0_0_1_n_n.lhsIdx_val_of_single rfl j q
theorem rhs_0 (j : S5000x64.Idx) (q : dot_S5000x64_S64x64_S5000x64_1_0_0_1_n_n.contr.Idx) :
    (dot_S5000x64_S64x64_S5000x64_1_0_0_1_n_n.rhsIdx j q 0).val = (q ⟨0, by decide⟩).val :=
  dot_S5000x64_S64x64_S5000x64_1_0_0_1_n_n.rhsIdx_val_of_single rfl j q
theorem rhs_1 (j : S5000x64.Idx) (q : dot_S5000x64_S64x64_S5000x64_1_0_0_1_n_n.contr.Idx) :
    (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's value at entry (p, q) of its block: the sum over k of the left block at (p, k) times the weight at (k, q). -/
theorem pay_apply (x0 : Vec Ideal S5000x64 .f32) (x1 : Vec Ideal S64x64 .f32) (p : Fin 5000) (q : Fin 64) :
    k3_pay1 (F := Ideal) x0 x1 (ix2 p q) = ∑ k : Fin 64, x0 (ix2 p k) * x1 (ix2 k q) := by
  unfold k3_pay1
  rw [shapeCast_self]
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_0 _ _
    | ⟨1, _⟩ => exact (lhs_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_0 _ _).trans hk
    | ⟨1, _⟩ => exact rhs_1 _ _)
  rw [truncf_apply, truncf_apply, el, er]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the left block and the output block are the point's own, the weight's
    block is the whole matrix. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the matrix product of the two arrays the region finds. -/
theorem flushed_eq (c : Dev nD) (t : Fin cfg3.N) :
    (dat3 (F := Ideal) V c).flushed 2 t
      = ((cfg3.win 2).blk t).view.read (Elt Ideal) (Cert.Spec.matProd (V c main_v52) (V c main_arg5)) := by
  show (cfg3.win 2).cut (grid3.coords t) ((dat3 V c).after 2 t) = _
  rw [after3_2]
  unfold out3_2
  rw [View.canon_unit_zero hz]
  simp only [View.ld_unit_zero (S := S5000x64) hz, View.ld_unit_zero (S := S64x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  have ht : t.val < 10 := t.isLt
  -- the entry's place in the whole array
  have hemb : ((cfg3.win 2).blk t).view.emb (ix2 p q) = ix2 (n0 := 50000) (n1 := 64) ⟨t.val * 5000 + p.val, by omega⟩ q := by
    funext a; apply Fin.ext
    match a with
    | ⟨0, _⟩ => show win3_2.index t (0 : Fin 2) * 5000 + 1 * p.val = t.val * 5000 + p.val; omega
    | ⟨1, _⟩ => show win3_2.index t (1 : Fin 2) * 64 + 1 * q.val = q.val; omega
  show k3_pay1 (iblk3 V c 0 t) (iblk3 V c 1 t) (ix2 p q) = Cert.Spec.matProd (V c main_v52) (V c main_arg5) (((cfg3.win 2).blk t).view.emb (ix2 p q))
  rw [hemb, Cert.Spec.matProd_ix2, pay_apply]
  unfold Cert.Spec.matProdAt
  refine Finset.sum_congr rfl fun k _ => ?_
  have h0 : iblk3 V c 0 t (ix2 p k) = V c main_v52 (ix2 (n0 := 50000) (n1 := 64) ⟨t.val * 5000 + p.val, by omega⟩ k) := by
    show V c main_v52 (((cfg3.win 0).blk t).view.emb (ix2 p k)) = _
    refine congrArg _ (funext fun a => Fin.ext ?_)
    match a with
    | ⟨0, _⟩ => show win3_0.index t (0 : Fin 2) * 5000 + 1 * p.val = t.val * 5000 + p.val; omega
    | ⟨1, _⟩ => show win3_0.index t (1 : Fin 2) * 64 + 1 * k.val = k.val; omega
  have h1 : iblk3 V c 1 t (ix2 k q) = V c main_arg5 (ix2 (n0 := 64) (n1 := 64) k q) := by
    show V c main_arg5 (((cfg3.win 1).blk t).view.emb (ix2 k q)) = _
    refine congrArg _ (funext fun a => Fin.ext ?_)
    match a with
    | ⟨0, _⟩ => show win3_1.index t (0 : Fin 2) * 64 + 1 * k.val = k.val; omega
    | ⟨1, _⟩ => show win3_1.index t (1 : Fin 2) * 64 + 1 * q.val = q.val; omega
  rw [h0, h1]

/-- An index of the array is in point `t`'s block iff each coordinate is in the block's range on its axis. -/
theorem mem_blk (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v53).slice (win3_2.rect t)).set ↔ _
  rw [View.set_slice_whole, Rect.mem_set_unit]
  exact Iff.rfl

/-- Every row lies in the block of the point numbered by its row divided by 5000. -/
theorem cover (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  refine ⟨⟨(i 0).val / 5000, by rw [show cfg3.N = 10 from N_3]; omega⟩, flush3_2 _, ?_⟩
  rw [mem_blk]
  obtain ⟨e0, e1, e2, e3, e4, e5⟩ := idx_facts ⟨(i 0).val / 5000, by rw [show cfg3.N = 10 from N_3]; omega⟩
  intro a
  match a with
  | ⟨0, _⟩ => show win3_2.index _ (0 : Fin 2) * 5000 ≤ (i 0).val ∧ (i 0).val < win3_2.index _ (0 : Fin 2) * 5000 + 5000; rw [e4]; show (i 0).val / 5000 * 5000 ≤ (i 0).val ∧ (i 0).val < (i 0).val / 5000 * 5000 + 5000; omega
  | ⟨1, _⟩ => show win3_2.index _ (1 : Fin 2) * 64 ≤ (i 1).val ∧ (i 1).val < win3_2.index _ (1 : Fin 2) * 64 + 64; rw [e5]; omega

/-- The array the region leaves is the matrix product of the two arrays it finds. -/
theorem arr (c : Dev nD) :
    (dat3 (F := Ideal) V c).arrAt 2 cfg3.N = Cert.Spec.matProd (V c main_v52) (V c main_arg5) :=
  (dat3 V c).arrAt_eq_of_cover 2 _ (fun t _ => flushed_eq V c t) cover

end Cert.KernelIdeal.Reg3

end
-- ==== Proof.Pay4.lean ====
/-
  One block of the second layer's combination, entry by entry: the aggregated messages plus the projection times the
  squared inverse-root degree of the node (a column of the block, spread over the 64 channels) plus the bias of the
  channel (a row, spread over the 5000 nodes). This layer takes no positive part.
-/
import proofs.«426108_j58506044506790_3_alg».proof.Proof.Pay2

set_option maxRecDepth 16384

noncomputable section

namespace Cert.KernelIdeal.Pay4

open Idealize.ShloMosaic Idealize.ShloMosaic.TcCoe Idealize.SL.Sem Idealize.ShloMosaic.ValueIdx
open Cert.KernelIdeal Cert.KernelIdeal.Gen

/-- The body's value at entry (p, q) of its block. -/
theorem pay_apply (v0 : Vec Ideal S5000x1 .f32) (v4 : Vec Ideal S1x64 .f32) (v8 v10 : Vec Ideal S5000x64 .f32) (p : Fin 5000) (q : Fin 64) :
    k4_pay1 (F := Ideal) v0 v4 v8 v10 (ix2 p q)
      = v8 (ix2 p q) + v10 (ix2 p q) * v0 (ix2 p 0) + v4 (ix2 0 q) := by
  unfold k4_pay1
  simp only [shapeCast_self]
  show v8 (ix2 p q) + v10 (ix2 p q) * broadcastTo S5000x64 v0 broadcasts_S5000x1_S5000x64 (ix2 p q)
      + broadcastTo S5000x64 v4 broadcasts_S1x64_S5000x64 (ix2 p q) = _
  rw [Pay2.col_apply, Pay2.row_apply]

end Cert.KernelIdeal.Pay4

end
-- ==== Proof.Reg4.lean ====
/-
  The second layer's combination. The kernel walks the 50000 nodes in ten blocks of 5000; at each block it adds, to the
  block of aggregated messages, the block of projections times the node's squared inverse-root degree (a column,
  spread over the 64 channels) and the bias row (spread over the 5000 nodes); this layer takes no positive part. Every
  entry of a block is the combination of the matching entries of the whole arrays, the ten blocks tile the nodes,
  and the array the region leaves is the combination.
-/
import proofs.«426108_j58506044506790_3_alg».proof.Proof.Gen.KernelIdeal.Frame
import proofs.«426108_j58506044506790_3_alg».proof.Proof.Spec
import proofs.«426108_j58506044506790_3_alg».proof.Proof.Pay4
import Idealize.ShloMosaic.Lib.Pipeline.Value
import Idealize.ShloMosaic.Lib.ValueIdx
import Idealize.ShloMosaic.PureOps.Ideal.Laws

set_option maxRecDepth 16384

noncomputable section

namespace Cert.KernelIdeal.Reg4

open Idealize.ShloMosaic Idealize.ShloMosaic.TcCoe Idealize.SL.Sem Idealize.ShloMosaic.ValueIdx
open Idealize.ShloMosaic.Pipeline (Dat)
open Cert.KernelIdeal Cert.KernelIdeal.Gen

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the aggregate's, the projection's, the column's and the output's blocks
    are the point's own, the bias row's block is the whole row. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- What point `t` writes back is block `t` of the combination of the four arrays the region finds. -/
theorem flushed_eq (c : Dev nD) (t : Fin cfg4.N) :
    (dat4 (F := Ideal) V c).flushed 4 t
      = ((cfg4.win 4).blk t).view.read (Elt Ideal)
          (Cert.Spec.combine (V c main_v66) (V c main_v53) (V c main_v34) (V c main_v36)) := by
  show (cfg4.win 4).cut (grid4.coords t) ((dat4 V c).after 4 t) = _
  rw [after4_4]
  unfold out4_4
  rw [View.canon_unit_zero hz]
  simp only [View.ld_unit_zero (S := S5000x64) hz, View.ld_unit_zero (S := S5000x1) hz, View.ld_unit_zero (S := S1x64) hz]
  obtain ⟨e0, e1, e2, e3, e4, e5, e6, e7, e8, e9⟩ := idx_facts t
  funext j
  obtain ⟨p, q, rfl⟩ : ∃ (p : Fin 5000) (q : Fin 64), j = ix2 p q := ⟨j 0, j 1, eq_ix2 j⟩
  have ht : t.val < 10 := t.isLt
  have hemb : ((cfg4.win 4).blk t).view.emb (ix2 p q) = ix2 (n0 := 50000) (n1 := 64) ⟨t.val * 5000 + p.val, by omega⟩ q := by
    funext a; apply Fin.ext
    match a with
    | ⟨0, _⟩ => show win4_4.index t (0 : Fin 2) * 5000 + 1 * p.val = t.val * 5000 + p.val; omega
    | ⟨1, _⟩ => show win4_4.index t (1 : Fin 2) * 64 + 1 * q.val = q.val; omega
  show k4_pay1 (iblk4 V c 2 t) (iblk4 V c 3 t) (iblk4 V c 0 t) (iblk4 V c 1 t) (ix2 p q)
    = Cert.Spec.combine (V c main_v66) (V c main_v53) (V c main_v34) (V c main_v36) (((cfg4.win 4).blk t).view.emb (ix2 p q))
  rw [hemb, Cert.Spec.combine_ix2, Pay4.pay_apply]
  unfold Cert.Spec.combineAt
  have h0 : iblk4 V c 0 t (ix2 p q) = V c main_v66 (ix2 (n0 := 50000) (n1 := 64) ⟨t.val * 5000 + p.val, by omega⟩ q) := by
    show V c main_v66 (((cfg4.win 0).blk t).view.emb (ix2 p q)) = _
    refine congrArg _ (funext fun a => Fin.ext ?_)
    match a with
    | ⟨0, _⟩ => show win4_0.index t (0 : Fin 2) * 5000 + 1 * p.val = t.val * 5000 + p.val; omega
    | ⟨1, _⟩ => show win4_0.index t (1 : Fin 2) * 64 + 1 * q.val = q.val; omega
  have h1 : iblk4 V c 1 t (ix2 p q) = V c main_v53 (ix2 (n0 := 50000) (n1 := 64) ⟨t.val * 5000 + p.val, by omega⟩ q) := by
    show V c main_v53 (((cfg4.win 1).blk t).view.emb (ix2 p q)) = _
    refine congrArg _ (funext fun a => Fin.ext ?_)
    match a with
    | ⟨0, _⟩ => show win4_1.index t (0 : Fin 2) * 5000 + 1 * p.val = t.val * 5000 + p.val; omega
    | ⟨1, _⟩ => show win4_1.index t (1 : Fin 2) * 64 + 1 * q.val = q.val; omega
  have h2 : iblk4 V c 2 t (ix2 p 0) = V c main_v34 (ix2 (n0 := 50000) (n1 := 1) ⟨t.val * 5000 + p.val, by omega⟩ 0) := by
    show V c main_v34 (((cfg4.win 2).blk t).view.emb (ix2 p 0)) = _
    refine congrArg _ (funext fun a => Fin.ext ?_)
    match a with
    | ⟨0, _⟩ => show win4_2.index t (0 : Fin 2) * 5000 + 1 * p.val = t.val * 5000 + p.val; omega
    | ⟨1, _⟩ => show win4_2.index t (1 : Fin 2) * 1 + 1 * 0 = 0; omega
  have h3 : iblk4 V c 3 t (ix2 0 q) = V c main_v36 (ix2 (n0 := 1) (n1 := 64) 0 q) := by
    show V c main_v36 (((cfg4.win 3).blk t).view.emb (ix2 0 q)) = _
    refine congrArg _ (funext fun a => Fin.ext ?_)
    match a with
    | ⟨0, _⟩ => show win4_3.index t (0 : Fin 2) * 1 + 1 * 0 = 0; omega
    | ⟨1, _⟩ => show win4_3.index t (1 : Fin 2) * 64 + 1 * q.val = q.val; omega
  rw [h0, h1, h2, h3]

/-- An index of the array is in point `t`'s block iff each coordinate is in the block's range on its axis. -/
theorem mem_blk (t : Fin cfg4.N) (i : S50000x64.Idx) :
    i ∈ ((cfg4.win 4).blk t).view.set ↔ ∀ a : Fin 2, win4_4.index t a * S5000x64.size a ≤ (i a).val ∧ (i a).val < win4_4.index t a * S5000x64.size a + S5000x64.size a := by
  show i ∈ ((View.whole main_v67).slice (win4_4.rect t)).set ↔ _
  rw [View.set_slice_whole, Rect.mem_set_unit]
  exact Iff.rfl

/-- Every node lies in the block of the point numbered by its number divided by 5000. -/
theorem cover (i : S50000x64.Idx) : ∃ t : Fin cfg4.N, (cfg4.win 4).flush t = true ∧ i ∈ ((cfg4.win 4).blk t).view.set := by
  have hi0 : (i 0).val < 50000 := (i 0).isLt
  have hi1 : (i 1).val < 64 := (i 1).isLt
  refine ⟨⟨(i 0).val / 5000, by rw [show cfg4.N = 10 from N_4]; omega⟩, flush4_4 _, ?_⟩
  rw [mem_blk]
  obtain ⟨e0, e1, e2, e3, e4, e5, e6, e7, e8, e9⟩ := idx_facts ⟨(i 0).val / 5000, by rw [show cfg4.N = 10 from N_4]; omega⟩
  intro a
  match a with
  | ⟨0, _⟩ => show win4_4.index _ (0 : Fin 2) * 5000 ≤ (i 0).val ∧ (i 0).val < win4_4.index _ (0 : Fin 2) * 5000 + 5000; rw [e8]; show (i 0).val / 5000 * 5000 ≤ (i 0).val ∧ (i 0).val < (i 0).val / 5000 * 5000 + 5000; omega
  | ⟨1, _⟩ => show win4_4.index _ (1 : Fin 2) * 64 ≤ (i 1).val ∧ (i 1).val < win4_4.index _ (1 : Fin 2) * 64 + 64; rw [e9]; omega

/-- The array the region leaves is the combination of the four arrays it finds. -/
theorem arr (c : Dev nD) :
    (dat4 (F := Ideal) V c).arrAt 4 cfg4.N
      = Cert.Spec.combine (V c main_v66) (V c main_v53) (V c main_v34) (V c main_v36) :=
  (dat4 V c).arrAt_eq_of_cover 4 _ (fun t _ => flushed_eq V c t) cover

end Cert.KernelIdeal.Reg4

end
-- ==== Proof.Reg5.lean ====
/-
  The output head. The kernel walks the 50000 nodes in ten blocks of 5000; at each block it multiplies the block by the
  whole 64 × 64 weight (both rounded to bf16 on the way in, which changes nothing over the extended reals) into a
  zero accumulator and adds the bias row (spread over the 5000 nodes). Every entry of a block is the matrix
  product's entry plus the bias of the channel, the ten blocks tile the nodes, and the array the region leaves is
  the affine map.
-/
import proofs.«426108_j58506044506790_3_alg».proof.Proof.Gen.KernelIdeal.Frame
import proofs.«426108_j58506044506790_3_alg».proof.Proof.Spec
import proofs.«426108_j58506044506790_3_alg».proof.Proof.Reg1
import proofs.«426108_j58506044506790_3_alg».proof.Proof.Pay2
import Idealize.ShloMosaic.Lib.Pipeline.Value
import Idealize.ShloMosaic.Lib.ValueIdx
import Idealize.ShloMosaic.PureOps.Ideal.Laws

set_option maxRecDepth 16384

noncomputable section

namespace Cert.KernelIdeal.Reg5

open Idealize.ShloMosaic Idealize.ShloMosaic.TcCoe Idealize.SL.Sem Idealize.ShloMosaic.ValueIdx
open Idealize.ShloMosaic.Pipeline (Dat)
open Cert.KernelIdeal Cert.KernelIdeal.Gen

/-! ## The affine map of one block -/

/-- The body is the projection kernel's product plus the bias row spread over the nodes. -/
theorem pay_eq (x0 : Vec Ideal S5000x64 .f32) (x1 : Vec Ideal S64x64 .f32) (x2 : Vec Ideal S1x64 .f32) :
    k5_pay1 (F := Ideal) x0 x1 x2
      = addf (k1_pay1 (F := Ideal) x0 x1) (broadcastTo S5000x64 (shapeCast S1x64 (shapeCast S1x64 x2 shapeCasts_S1x64_S1x64) shapeCasts_S1x64_S1x64) broadcasts_S1x64_S5000x64) := rfl

/-- The body's value at entry (p, q) of its block. -/
theorem pay_apply (x0 : Vec Ideal S5000x64 .f32) (x1 : Vec Ideal S64x64 .f32) (x2 : Vec Ideal S1x64 .f32) (p : Fin 5000) (q : Fin 64) :
    k5_pay1 (F := Ideal) x0 x1 x2 (ix2 p q) = (∑ k : Fin 64, x0 (ix2 p k) * x1 (ix2 k q)) + x2 (ix2 0 q) := by
  rw [pay_eq, ValueIdx.addf_apply, Reg1.pay_apply]
  simp only [shapeCast_self]
  rw [Pay2.row_apply]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the input block and the output block are the point's own, the weight's
    and the bias row's blocks are the whole arrays. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What point `t` writes back is block `t` of the affine map of the three arrays the region finds. -/
theorem flushed_eq (c : Dev nD) (t : Fin cfg5.N) :
    (dat5 (F := Ideal) V c).flushed 3 t
      = ((cfg5.win 3).blk t).view.read (Elt Ideal) (Cert.Spec.affine (V c main_v67) (V c main_arg7) (V c main_v37)) := by
  show (cfg5.win 3).cut (grid5.coords t) ((dat5 V c).after 3 t) = _
  rw [after5_3]
  unfold out5_3
  rw [View.canon_unit_zero hz]
  simp only [View.ld_unit_zero (S := S5000x64) hz, View.ld_unit_zero (S := S64x64) hz, View.ld_unit_zero (S := S1x64) hz]
  obtain ⟨e0, e1, e2, e3, e4, e5, e6, e7⟩ := idx_facts t
  funext j
  obtain ⟨p, q, rfl⟩ : ∃ (p : Fin 5000) (q : Fin 64), j = ix2 p q := ⟨j 0, j 1, eq_ix2 j⟩
  have ht : t.val < 10 := t.isLt
  have hemb : ((cfg5.win 3).blk t).view.emb (ix2 p q) = ix2 (n0 := 50000) (n1 := 64) ⟨t.val * 5000 + p.val, by omega⟩ q := by
    funext a; apply Fin.ext
    match a with
    | ⟨0, _⟩ => show win5_3.index t (0 : Fin 2) * 5000 + 1 * p.val = t.val * 5000 + p.val; omega
    | ⟨1, _⟩ => show win5_3.index t (1 : Fin 2) * 64 + 1 * q.val = q.val; omega
  show k5_pay1 (iblk5 V c 0 t) (iblk5 V c 1 t) (iblk5 V c 2 t) (ix2 p q)
    = Cert.Spec.affine (V c main_v67) (V c main_arg7) (V c main_v37) (((cfg5.win 3).blk t).view.emb (ix2 p q))
  rw [hemb, Cert.Spec.affine_ix2, pay_apply]
  unfold Cert.Spec.affineAt Cert.Spec.matProdAt
  have h2 : iblk5 V c 2 t (ix2 0 q) = V c main_v37 (ix2 (n0 := 1) (n1 := 64) 0 q) := by
    show V c main_v37 (((cfg5.win 2).blk t).view.emb (ix2 0 q)) = _
    refine congrArg _ (funext fun a => Fin.ext ?_)
    match a with
    | ⟨0, _⟩ => show win5_2.index t (0 : Fin 2) * 1 + 1 * 0 = 0; omega
    | ⟨1, _⟩ => show win5_2.index t (1 : Fin 2) * 64 + 1 * q.val = q.val; omega
  rw [h2]
  refine congrArg (· + _) (Finset.sum_congr rfl fun k _ => ?_)
  have h0 : iblk5 V c 0 t (ix2 p k) = V c main_v67 (ix2 (n0 := 50000) (n1 := 64) ⟨t.val * 5000 + p.val, by omega⟩ k) := by
    show V c main_v67 (((cfg5.win 0).blk t).view.emb (ix2 p k)) = _
    refine congrArg _ (funext fun a => Fin.ext ?_)
    match a with
    | ⟨0, _⟩ => show win5_0.index t (0 : Fin 2) * 5000 + 1 * p.val = t.val * 5000 + p.val; omega
    | ⟨1, _⟩ => show win5_0.index t (1 : Fin 2) * 64 + 1 * k.val = k.val; omega
  have h1 : iblk5 V c 1 t (ix2 k q) = V c main_arg7 (ix2 (n0 := 64) (n1 := 64) k q) := by
    show V c main_arg7 (((cfg5.win 1).blk t).view.emb (ix2 k q)) = _
    refine congrArg _ (funext fun a => Fin.ext ?_)
    match a with
    | ⟨0, _⟩ => show win5_1.index t (0 : Fin 2) * 64 + 1 * k.val = k.val; omega
    | ⟨1, _⟩ => show win5_1.index t (1 : Fin 2) * 64 + 1 * q.val = q.val; omega
  rw [h0, h1]

/-- An index of the array is in point `t`'s block iff each coordinate is in the block's range on its axis. -/
theorem mem_blk (t : Fin cfg5.N) (i : S50000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v68).slice (win5_3.rect t)).set ↔ _
  rw [View.set_slice_whole, Rect.mem_set_unit]
  exact Iff.rfl

/-- Every node lies in the block of the point numbered by its number divided by 5000. -/
theorem cover (i : S50000x64.Idx) : ∃ t : Fin cfg5.N, (cfg5.win 3).flush t = true ∧ i ∈ ((cfg5.win 3).blk t).view.set := by
  have hi0 : (i 0).val < 50000 := (i 0).isLt
  have hi1 : (i 1).val < 64 := (i 1).isLt
  refine ⟨⟨(i 0).val / 5000, by rw [show cfg5.N = 10 from N_5]; omega⟩, flush5_3 _, ?_⟩
  rw [mem_blk]
  obtain ⟨e0, e1, e2, e3, e4, e5, e6, e7⟩ := idx_facts ⟨(i 0).val / 5000, by rw [show cfg5.N = 10 from N_5]; omega⟩
  intro a
  match a with
  | ⟨0, _⟩ => show win5_3.index _ (0 : Fin 2) * 5000 ≤ (i 0).val ∧ (i 0).val < win5_3.index _ (0 : Fin 2) * 5000 + 5000; rw [e6]; show (i 0).val / 5000 * 5000 ≤ (i 0).val ∧ (i 0).val < (i 0).val / 5000 * 5000 + 5000; omega
  | ⟨1, _⟩ => show win5_3.index _ (1 : Fin 2) * 64 ≤ (i 1).val ∧ (i 1).val < win5_3.index _ (1 : Fin 2) * 64 + 64; rw [e7]; omega

/-- The array the region leaves is the affine map of the three arrays it finds. -/
theorem arr (c : Dev nD) :
    (dat5 (F := Ideal) V c).arrAt 3 cfg5.N = Cert.Spec.affine (V c main_v67) (V c main_arg7) (V c main_v37) :=
  (dat5 V c).arrAt_eq_of_cover 3 _ (fun t _ => flushed_eq V c t) cover

end Cert.KernelIdeal.Reg5

end
-- ==== Proof.RefValue.lean ====
/-
  The reference program, read through the same mathematics. Its row mean, its three matrix products, its two layer
  combinations and its output head are the functions of `Cert.Spec`, entry by entry: a host sum over the last axis from
  the zero initial value is the plain sum, a host matrix product is the sum over k of a(n, k) · w(k, c), the squared
  inverse-root degree reaches an entry as a column spread over the channels and a bias as a row spread over the nodes.
  The irregular part of a layer is kept as one function of the projected features (`aggOf`); the second layer
  recomputes the degrees and the edge normalisation by the same operations of the same inputs, so its terms are the
  first layer's.
-/
import proofs.«426108_j58506044506790_3_alg».proof.Proof.Gen.ReferenceIdeal.Read
import proofs.«426108_j58506044506790_3_alg».proof.Proof.Spec

set_option maxRecDepth 16384

noncomputable section

namespace Cert.ReferenceIdeal.RefV

open Idealize.ShloMosaic Idealize.ShloMosaic.TcCoe Idealize.SL.Sem Idealize.ShloMosaic.ValueIdx
open Cert.ReferenceIdeal Cert.ReferenceIdeal.Gen Cert.ReferenceIdeal.Read

variable (x0 : (⟨S50000x64x16, .f32⟩ : BufTy).Contents (Elt Ideal)) (x1 : (⟨S2x800000, .i32⟩ : BufTy).Contents (Elt Ideal))
  (x2 : (⟨S800000x16, .f32⟩ : BufTy).Contents (Elt Ideal)) (x3 : (⟨S64x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S64x64, .f32⟩ : BufTy).Contents (Elt Ideal))
  (x8 : (⟨S64, .f32⟩ : BufTy).Contents (Elt Ideal))

/-! ## The irregular part of a layer, as one function of the projected features -/

/-- Gather the projected features at the (wrapped) source nodes, scale each edge's row by the edge normalisation,
    and scatter-add the rows at the destination nodes into zeros. -/
def aggOf (h : FVec Ideal S50000x64 .f32) : FVec Ideal S50000x64 .f32 :=
  Host.scatterAdd (F := Ideal) scatter_S50000x64_S800000x1_S800000x64_1_0_0_1 (val_main_v46 (F := Ideal)) (val_main_v47 (F := Ideal) x1)
    (mulf (F := Ideal) (Host.gather gather_S50000x64_S800000x1_S800000x64_1_0_n_n_0_1_164 h (val_main_v41 (F := Ideal) x1)) (val_main_v44 (F := Ideal) x1 x2))

theorem agg1_eq : val_main_v48 (F := Ideal) x0 x1 x2 x3 = aggOf x1 x2 (val_main_v9 (F := Ideal) x0 x3) := rfl

/-- The second layer's degrees, inverse roots and edge normalisation are the first layer's: the same operations of the
    same inputs. -/
theorem dinv_again : val_main_v68 (F := Ideal) x1 x2 = val_main_v19 (F := Ideal) x1 x2 := rfl
theorem norm_again : val_main_v84 (F := Ideal) x1 x2 = val_main_v35 (F := Ideal) x1 x2 := rfl
theorem dinv2_again : val_main_v99 (F := Ideal) x1 x2 = val_main_v50 (F := Ideal) x1 x2 := rfl
theorem agg2_eq : val_main_v97 (F := Ideal) x0 x1 x2 x3 x4 x5 = aggOf x1 x2 (val_main_v58 (F := Ideal) x0 x1 x2 x3 x4 x5) := rfl

/-! ## The dense parts, entry by entry -/

/-- The reference's row mean. -/
theorem mean_eq : val_main_v2 (F := Ideal) x0 = Cert.Spec.rowMean x0 := by
  funext i
  obtain ⟨n, c, rfl⟩ : ∃ (n : Fin 50000) (c : Fin 64), i = ix2 n c := ⟨i 0, i 1, eq_ix2 i⟩
  rw [val_main_v2_apply, val_main_v0_apply, val_main_v1_apply, Cert.Spec.rowMean_ix2]
  unfold Cert.Spec.rowMeanAt
  show Ideal.div (Ideal.ofBits .f32 0x00000000#32 + ∑ k : Fin 16, x0 (idx_main_v0 (ix2 n c) k)) (Ideal.ofBits .f32 0x41800000#32) = _
  rw [Ideal.ofBits_zero_f32, zero_add]
  refine congrArg (Ideal.div · _) (Finset.sum_congr rfl fun k _ => congrArg x0 (funext fun a => Fin.ext ?_))
  match a with
  | ⟨0, _⟩ => rfl
  | ⟨1, _⟩ => rfl
  | ⟨2, _⟩ => rfl

/-- A host matrix product of a node-by-channel matrix with a weight, whatever the matrix. -/
theorem dot_eq (a : FVec Ideal S50000x64 .f32) (w : FVec Ideal S64x64 .f32) :
    Host.dotGeneral (F := Ideal) dot_S50000x64_S64x64_S50000x64_1_0_0_1_n_n none a w = Cert.Spec.matProd a w := by
  funext i
  obtain ⟨n, c, rfl⟩ : ∃ (n : Fin 50000) (c : Fin 64), i = ix2 n c := ⟨i 0, i 1, eq_ix2 i⟩
  rw [Cert.Spec.matProd_ix2]
  unfold Cert.Spec.matProdAt
  simp only [Host.dotGeneral]
  rw [Ideal.dotGeneral_apply, ← Equiv.sum_comp (ValueIdx.contrEquiv1 dot_S50000x64_S64x64_S50000x64_1_0_0_1_n_n 64 rfl rfl).symm]
  refine Finset.sum_congr rfl fun k _ => ?_
  have hk := ValueIdx.contrEquiv1_symm_val dot_S50000x64_S64x64_S50000x64_1_0_0_1_n_n 64 rfl rfl k
  have el : dot_S50000x64_S64x64_S50000x64_1_0_0_1_n_n.lhsIdx (ix2 n c) ((ValueIdx.contrEquiv1 dot_S50000x64_S64x64_S50000x64_1_0_0_1_n_n 64 rfl rfl).symm k) = ix2 n k := funext fun a => Fin.ext (by
    match a with
    | ⟨0, _⟩ => exact lhs_main_v9_0 _ _
    | ⟨1, _⟩ => exact (lhs_main_v9_1 _ _).trans hk)
  have er : dot_S50000x64_S64x64_S50000x64_1_0_0_1_n_n.rhsIdx (ix2 n c) ((ValueIdx.contrEquiv1 dot_S50000x64_S64x64_S50000x64_1_0_0_1_n_n 64 rfl rfl).symm k) = ix2 k c := funext fun a => Fin.ext (by
    match a with
    | ⟨0, _⟩ => exact (rhs_main_v9_0 _ _).trans hk
    | ⟨1, _⟩ => exact rhs_main_v9_1 _ _)
  rw [el, er]

theorem proj1_eq : val_main_v9 (F := Ideal) x0 x3 = Cert.Spec.matProd (val_main_v2 (F := Ideal) x0) x3 := by
  unfold val_main_v9; exact dot_eq _ _
theorem proj2_eq : val_main_v58 (F := Ideal) x0 x1 x2 x3 x4 x5 = Cert.Spec.matProd (val_main_v57 (F := Ideal) x0 x1 x2 x3 x4) x5 := by
  unfold val_main_v58; exact dot_eq _ _
theorem proj3_eq : val_main_v106 (F := Ideal) x0 x1 x2 x3 x4 x5 x6 x7 = Cert.Spec.matProd (val_main_v105 (F := Ideal) x0 x1 x2 x3 x4 x5 x6) x7 := by
  unfold val_main_v106; exact dot_eq _ _

/-- The first layer's combination, with the positive part. -/
theorem comb1_eq : val_main_v57 (F := Ideal) x0 x1 x2 x3 x4
    = Cert.Spec.combineRelu (val_main_v48 (F := Ideal) x0 x1 x2 x3) (val_main_v9 (F := Ideal) x0 x3) (val_main_v50 (F := Ideal) x1 x2) (val_main_v54 (F := Ideal) x4) := by
  funext i
  obtain ⟨n, c, rfl⟩ : ∃ (n : Fin 50000) (c : Fin 64), i = ix2 n c := ⟨i 0, i 1, eq_ix2 i⟩
  rw [val_main_v57_apply, val_main_v56_apply, val_main_v55_apply, val_main_v53_apply, val_main_v52_apply, val_main_v51_apply,
    val_main_call1_v0_apply, Cert.Spec.combineRelu_ix2]
  unfold Cert.Spec.combineReluAt Cert.Spec.combineAt
  have e1 : idx_main_v51 (ix2 n c) = ix2 (n0 := 50000) (n1 := 1) n 0 := funext fun a => Fin.ext (by
    match a with
    | ⟨0, _⟩ => rfl
    | ⟨1, _⟩ => rfl)
  have e2 : idx_main_v55 (ix2 n c) = ix2 (n0 := 1) (n1 := 64) 0 c := funext fun a => Fin.ext (by
    match a with
    | ⟨0, _⟩ => rfl
    | ⟨1, _⟩ => rfl)
  rw [e1, e2]
  rfl

/-- The second layer's combination. -/
theorem comb2_eq : val_main_v105 (F := Ideal) x0 x1 x2 x3 x4 x5 x6
    = Cert.Spec.combine (val_main_v97 (F := Ideal) x0 x1 x2 x3 x4 x5) (val_main_v58 (F := Ideal) x0 x1 x2 x3 x4 x5) (val_main_v99 (F := Ideal) x1 x2) (val_main_v103 (F := Ideal) x6) := by
  funext i
  obtain ⟨n, c, rfl⟩ : ∃ (n : Fin 50000) (c : Fin 64), i = ix2 n c := ⟨i 0, i 1, eq_ix2 i⟩
  rw [val_main_v105_apply, val_main_v104_apply, val_main_v102_apply, val_main_v101_apply, val_main_v100_apply, Cert.Spec.combine_ix2]
  unfold Cert.Spec.combineAt
  have e1 : idx_main_v100 (ix2 n c) = ix2 (n0 := 50000) (n1 := 1) n 0 := funext fun a => Fin.ext (by
    match a with
    | ⟨0, _⟩ => rfl
    | ⟨1, _⟩ => rfl)
  have e2 : idx_main_v104 (ix2 n c) = ix2 (n0 := 1) (n1 := 64) 0 c := funext fun a => Fin.ext (by
    match a with
    | ⟨0, _⟩ => rfl
    | ⟨1, _⟩ => rfl)
  rw [e1, e2]
  rfl

/-- The output head. -/
theorem head_eq : val_main_v109 (F := Ideal) x0 x1 x2 x3 x4 x5 x6 x7 x8
    = Cert.Spec.affine (val_main_v105 (F := Ideal) x0 x1 x2 x3 x4 x5 x6) x7 (val_main_v107 (F := Ideal) x8) := by
  funext i
  obtain ⟨n, c, rfl⟩ : ∃ (n : Fin 50000) (c : Fin 64), i = ix2 n c := ⟨i 0, i 1, eq_ix2 i⟩
  rw [val_main_v109_apply, val_main_v108_apply, proj3_eq, Cert.Spec.affine_ix2, Cert.Spec.matProd_ix2]
  unfold Cert.Spec.affineAt
  have e2 : idx_main_v108 (ix2 n c) = ix2 (n0 := 1) (n1 := 64) 0 c := funext fun a => Fin.ext (by
    match a with
    | ⟨0, _⟩ => rfl
    | ⟨1, _⟩ => rfl)
  rw [e2]
  rfl

/-! ## The whole reference as one composition -/

/-- The program's mathematics: two graph-convolution layers over the row mean and the output head, each dense part
    a function of `Cert.Spec`, each irregular part `aggOf`, the biases as rows `r4`, `r6`, `r8`. -/
def out (r4 r6 r8 : (⟨S1x64, .f32⟩ : BufTy).Contents (Elt Ideal)) : (⟨S50000x64, .f32⟩ : BufTy).Contents (Elt Ideal) :=
  let h1 := Cert.Spec.matProd (Cert.Spec.rowMean x0) x3
  let o1 := Cert.Spec.combineRelu (aggOf x1 x2 h1) h1 (val_main_v50 (F := Ideal) x1 x2) r4
  let h2 := Cert.Spec.matProd o1 x5
  let o2 := Cert.Spec.combine (aggOf x1 x2 h2) h2 (val_main_v50 (F := Ideal) x1 x2) r6
  Cert.Spec.affine o2 x7 r8

/-- The reference's result is that composition, the biases spread into rows. -/
theorem result_eq : val_main_v109 (F := Ideal) x0 x1 x2 x3 x4 x5 x6 x7 x8
    = out x0 x1 x2 x3 x5 x7 (val_main_v54 (F := Ideal) x4) (val_main_v103 (F := Ideal) x6) (val_main_v107 (F := Ideal) x8) := by
  rw [head_eq, comb2_eq, agg2_eq, dinv2_again, proj2_eq, comb1_eq, agg1_eq, proj1_eq, mean_eq]
  rfl

end Cert.ReferenceIdeal.RefV

end
-- ==== Proof.KChain.lean ====
/-
  The kernel's program, boundary by boundary. Between its six regions the program runs stretches of host
  operations; the buffer contents at each boundary are the previous boundary's, with the stretch's results or the
  region's output array replaced. Walking from the launch to the return: the row mean (region 0); the edge weights,
  the wrapped source and destination nodes, the inverse-root degrees, the edge normalisation and the bias rows (host);
  the first projection (region 1); the first aggregation (host); the first combination with the positive part
  (region 2); the second projection (region 3); the second aggregation (host); the second combination (region 4);
  the output head (region 5). Each region's array is its function of `Cert.Spec` of the arrays it finds; each host
  result is the reference's own stage of the same inputs (the two programs run the same host operations there); a
  buffer nobody writes in between is carried unchanged.
-/
import proofs.«426108_j58506044506790_3_alg».proof.Proof.Gen.KernelIdeal.Frame
import proofs.«426108_j58506044506790_3_alg».proof.Proof.Reg0
import proofs.«426108_j58506044506790_3_alg».proof.Proof.Reg1
import proofs.«426108_j58506044506790_3_alg».proof.Proof.Reg2
import proofs.«426108_j58506044506790_3_alg».proof.Proof.Reg3
import proofs.«426108_j58506044506790_3_alg».proof.Proof.Reg4
import proofs.«426108_j58506044506790_3_alg».proof.Proof.Reg5
import proofs.«426108_j58506044506790_3_alg».proof.Proof.RefValue

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Cert.ReferenceIdeal.Read Cert.ReferenceIdeal.RefV

variable (m : (ℓ : Loc nD τ sig) → Buf (Elt Ideal) ℓ) (ρ : Dev nD → PrngReg) (c : Dev nD)

/-- A buffer no operation of a host stretch writes keeps its contents across the stretch. -/
macro "host_keep" : tactic => `(tactic| (
  refine StableHlo.after_of_forall_not_mem _ _ (List.forall_iff_forall_mem.mp ?_)
  simp only [hostOps1, hostOps1_1, hostOps1_2, hostOps2, hostOps4, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The arguments, wherever they are read -/

theorem W1_arg (b : Ref sig .tc) (hb : ∀ w, Pipeline.arrRef spec0 w ≠ b) :
    W1 m ρ c (Proc.devRef .tc b) = m ((c : Thread nD τ).loc b) := W1_of_ne m ρ c b hb

theorem W4_arg3 : W4 m ρ c (Proc.devRef .tc main_arg3) = m ((c : Thread nD τ).loc main_arg3) :=
  calc W4 m ρ c (Proc.devRef .tc main_arg3)
    _ = W3 m ρ c (Proc.devRef .tc main_arg3) := by host_keep
    _ = W2 m ρ c (Proc.devRef .tc main_arg3) := by host_keep
    _ = W1 m ρ c (Proc.devRef .tc main_arg3) := by host_keep
    _ = _ := W1_arg m ρ c main_arg3 (by decide)

theorem W3_arg4 : W3 m ρ c (Proc.devRef .tc main_arg4) = m ((c : Thread nD τ).loc main_arg4) :=
  calc W3 m ρ c (Proc.devRef .tc main_arg4)
    _ = W2 m ρ c (Proc.devRef .tc main_arg4) := by host_keep
    _ = W1 m ρ c (Proc.devRef .tc main_arg4) := by host_keep
    _ = _ := W1_arg m ρ c main_arg4 (by decide)
theorem W3_arg6 : W3 m ρ c (Proc.devRef .tc main_arg6) = m ((c : Thread nD τ).loc main_arg6) :=
  calc W3 m ρ c (Proc.devRef .tc main_arg6)
    _ = W2 m ρ c (Proc.devRef .tc main_arg6) := by host_keep
    _ = W1 m ρ c (Proc.devRef .tc main_arg6) := by host_keep
    _ = _ := W1_arg m ρ c main_arg6 (by decide)
theorem W3_arg8 : W3 m ρ c (Proc.devRef .tc main_arg8) = m ((c : Thread nD τ).loc main_arg8) :=
  calc W3 m ρ c (Proc.devRef .tc main_arg8)
    _ = W2 m ρ c (Proc.devRef .tc main_arg8) := by host_keep
    _ = W1 m ρ c (Proc.devRef .tc main_arg8) := by host_keep
    _ = _ := W1_arg m ρ c main_arg8 (by decide)

theorem W7_arg5 : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := by host_keep
    _ = W4 m ρ c (Proc.devRef .tc main_arg5) := W5_of_ne m ρ c main_arg5 (by decide)
    _ = W3 m ρ c (Proc.devRef .tc main_arg5) := by host_keep
    _ = W2 m ρ c (Proc.devRef .tc main_arg5) := by host_keep
    _ = W1 m ρ c (Proc.devRef .tc main_arg5) := by host_keep
    _ = _ := W1_arg m ρ c main_arg5 (by decide)

theorem W10_arg7 : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := by host_keep
    _ = W7 m ρ c (Proc.devRef .tc main_arg7) := W8_of_ne m ρ c main_arg7 (by decide)
    _ = W6 m ρ c (Proc.devRef .tc main_arg7) := W7_of_ne m ρ c main_arg7 (by decide)
    _ = W5 m ρ c (Proc.devRef .tc main_arg7) := by host_keep
    _ = W4 m ρ c (Proc.devRef .tc main_arg7) := W5_of_ne m ρ c main_arg7 (by decide)
    _ = W3 m ρ c (Proc.devRef .tc main_arg7) := by host_keep
    _ = W2 m ρ c (Proc.devRef .tc main_arg7) := by host_keep
    _ = W1 m ρ c (Proc.devRef .tc main_arg7) := by host_keep
    _ = _ := W1_arg m ρ c main_arg7 (by decide)

/-! ## Region 0: the row mean -/

theorem W1_v0 : W1 m ρ c (Proc.devRef .tc main_v0) = Cert.Spec.rowMean (m ((c : Thread nD τ).loc main_arg0)) :=
  (W1_arr m ρ c 1).trans (Reg0.arr (V0 m ρ) c)

theorem W4_v0 : W4 m ρ c (Proc.devRef .tc main_v0) = Cert.Spec.rowMean (m ((c : Thread nD τ).loc main_arg0)) :=
  calc W4 m ρ c (Proc.devRef .tc main_v0)
    _ = W3 m ρ c (Proc.devRef .tc main_v0) := by host_keep
    _ = W2 m ρ c (Proc.devRef .tc main_v0) := by host_keep
    _ = W1 m ρ c (Proc.devRef .tc main_v0) := by host_keep
    _ = _ := W1_v0 m ρ c

/-! ## The first host stretches: edge weights, nodes, inverse-root degrees, edge normalisation, bias rows -/

/-- The last time step of every edge attribute. -/
theorem W2_v2 : W2 m ρ c (Proc.devRef .tc main_v2) = val_main_v4 (F := Ideal) (m ((c : Thread nD τ).loc main_arg2)) := by
  show StableHlo.after hostOps1 (W1 m ρ c) (Proc.devRef .tc main_v2) = _
  after_results
  rw [W1_arg m ρ c main_arg2 (by decide)]
  rfl
/-- The source nodes. -/
theorem W2_v4 : W2 m ρ c (Proc.devRef .tc main_v4) = val_main_v6 (F := Ideal) (m ((c : Thread nD τ).loc main_arg1)) := by
  show StableHlo.after hostOps1 (W1 m ρ c) (Proc.devRef .tc main_v4) = _
  after_results
  rw [W1_arg m ρ c main_arg1 (by decide)]
  rfl
/-- The destination nodes. -/
theorem W2_v6 : W2 m ρ c (Proc.devRef .tc main_v6) = val_main_v8 (F := Ideal) (m ((c : Thread nD τ).loc main_arg1)) := by
  show StableHlo.after hostOps1 (W1 m ρ c) (Proc.devRef .tc main_v6) = _
  after_results
  rw [W1_arg m ρ c main_arg1 (by decide)]
  rfl
/-- Where the degree is positive. -/
theorem W2_v13 : W2 m ρ c (Proc.devRef .tc main_v13)
    = val_main_v16 (F := Ideal) (m ((c : Thread nD τ).loc main_arg1)) (m ((c : Thread nD τ).loc main_arg2)) := by
  show StableHlo.after hostOps1 (W1 m ρ c) (Proc.devRef .tc main_v13) = _
  after_results
  rw [W1_arg m ρ c main_arg1 (by decide), W1_arg m ρ c main_arg2 (by decide)]
  rfl
/-- The degree to the power −1/2. -/
theorem W2_v15 : W2 m ρ c (Proc.devRef .tc main_v15)
    = val_main_v18 (F := Ideal) (m ((c : Thread nD τ).loc main_arg1)) (m ((c : Thread nD τ).loc main_arg2)) := by
  show StableHlo.after hostOps1 (W1 m ρ c) (Proc.devRef .tc main_v15) = _
  after_results
  rw [W1_arg m ρ c main_arg1 (by decide), W1_arg m ρ c main_arg2 (by decide)]
  rfl
theorem W2_cst3 : W2 m ρ c (Proc.devRef .tc main_cst_3) = val_main_cst_5 (F := Ideal) := by
  show StableHlo.after hostOps1 (W1 m ρ c) (Proc.devRef .tc main_cst_3) = _
  after_results
  rfl

set_option maxRecDepth 1000000 in
/-- The outlined selection (keep the power where the degree is positive, zero elsewhere), from any contents: its three
    operations pass their values through the buffers' own types unchanged. -/
theorem where_result (V : Valuation τ sig (Elt Ideal)) :
    StableHlo.after (hostOps1_1 (F := Ideal)) V (Proc.devRef .tc main_v16)
      = select (V (Proc.devRef .tc main_v13)) (V (Proc.devRef .tc main_v15))
          (broadcastInDim S50000 ![] bcast_S_S50000 (id (V (Proc.devRef .tc main_cst_3)))) := by
  after_results
  rfl

/-- The inverse-root degrees. -/
theorem W3_v16 : W3 m ρ c (Proc.devRef .tc main_v16)
    = val_main_v19 (F := Ideal) (m ((c : Thread nD τ).loc main_arg1)) (m ((c : Thread nD τ).loc main_arg2)) := by
  refine (where_result (W2 m ρ c)).trans ?_
  rw [W2_v13, W2_v15, W2_cst3]
  unfold val_main_v19 val_main_call0_v1 val_main_call0_v0
  rfl
theorem W3_v2 : W3 m ρ c (Proc.devRef .tc main_v2) = val_main_v4 (F := Ideal) (m ((c : Thread nD τ).loc main_arg2)) :=
  (show W3 m ρ c (Proc.devRef .tc main_v2) = W2 m ρ c (Proc.devRef .tc main_v2) by host_keep).trans (W2_v2 m ρ c)
theorem W3_v4 : W3 m ρ c (Proc.devRef .tc main_v4) = val_main_v6 (F := Ideal) (m ((c : Thread nD τ).loc main_arg1)) :=
  (show W3 m ρ c (Proc.devRef .tc main_v4) = W2 m ρ c (Proc.devRef .tc main_v4) by host_keep).trans (W2_v4 m ρ c)
theorem W3_v6 : W3 m ρ c (Proc.devRef .tc main_v6) = val_main_v8 (F := Ideal) (m ((c : Thread nD τ).loc main_arg1)) :=
  (show W3 m ρ c (Proc.devRef .tc main_v6) = W2 m ρ c (Proc.devRef .tc main_v6) by host_keep).trans (W2_v6 m ρ c)

/-- The edge normalisation. -/
theorem W4_v32 : W4 m ρ c (Proc.devRef .tc main_v32)
    = val_main_v35 (F := Ideal) (m ((c : Thread nD τ).loc main_arg1)) (m ((c : Thread nD τ).loc main_arg2)) := by
  show StableHlo.after hostOps1_2 (W3 m ρ c) (Proc.devRef .tc main_v32) = _
  generalize hV : W3 m ρ c = V
  after_results_simp
  subst hV
  rw [W3_v16, W3_v2, W3_v4, W3_v6]
  rfl
/-- The squared inverse-root degrees, as a column. -/
theorem W4_v34 : W4 m ρ c (Proc.devRef .tc main_v34)
    = val_main_v50 (F := Ideal) (m ((c : Thread nD τ).loc main_arg1)) (m ((c : Thread nD τ).loc main_arg2)) := by
  show StableHlo.after hostOps1_2 (W3 m ρ c) (Proc.devRef .tc main_v34) = _
  generalize hV : W3 m ρ c = V
  after_results_simp
  subst hV
  rw [W3_v16]
  rfl
theorem W4_v4 : W4 m ρ c (Proc.devRef .tc main_v4) = val_main_v6 (F := Ideal) (m ((c : Thread nD τ).loc main_arg1)) :=
  (show W4 m ρ c (Proc.devRef .tc main_v4) = W3 m ρ c (Proc.devRef .tc main_v4) by host_keep).trans (W3_v4 m ρ c)
theorem W4_v6 : W4 m ρ c (Proc.devRef .tc main_v6) = val_main_v8 (F := Ideal) (m ((c : Thread nD τ).loc main_arg1)) :=
  (show W4 m ρ c (Proc.devRef .tc main_v6) = W3 m ρ c (Proc.devRef .tc main_v6) by host_keep).trans (W3_v6 m ρ c)

/-- A bias reshaped into a row. -/
def rowOf (b : (⟨S64, .f32⟩ : BufTy).Contents (Elt Ideal)) : (⟨S1x64, .f32⟩ : BufTy).Contents (Elt Ideal) :=
  shapeCast S1x64 b shapeCasts_S64_S1x64

theorem W4_v35 : W4 m ρ c (Proc.devRef .tc main_v35) = rowOf (m ((c : Thread nD τ).loc main_arg4)) := by
  show StableHlo.after hostOps1_2 (W3 m ρ c) (Proc.devRef .tc main_v35) = _
  generalize hV : W3 m ρ c = V
  after_results_simp
  subst hV
  rw [W3_arg4]
  rfl
theorem W4_v36 : W4 m ρ c (Proc.devRef .tc main_v36) = rowOf (m ((c : Thread nD τ).loc main_arg6)) := by
  show StableHlo.after hostOps1_2 (W3 m ρ c) (Proc.devRef .tc main_v36) = _
  generalize hV : W3 m ρ c = V
  after_results_simp
  subst hV
  rw [W3_arg6]
  rfl
theorem W4_v37 : W4 m ρ c (Proc.devRef .tc main_v37) = rowOf (m ((c : Thread nD τ).loc main_arg8)) := by
  show StableHlo.after hostOps1_2 (W3 m ρ c) (Proc.devRef .tc main_v37) = _
  generalize hV : W3 m ρ c = V
  after_results_simp
  subst hV
  rw [W3_arg8]
  rfl

/-! ## Region 1: the first projection -/

theorem W5_v38 : W5 m ρ c (Proc.devRef .tc main_v38)
    = Cert.Spec.matProd (Cert.Spec.rowMean (m ((c : Thread nD τ).loc main_arg0))) (m ((c : Thread nD τ).loc main_arg3)) := by
  refine (W5_arr m ρ c 2).trans ((Reg1.arr (V4 m ρ) c).trans ?_)
  show Cert.Spec.matProd (W4 m ρ c (Proc.devRef .tc main_v0)) (W4 m ρ c (Proc.devRef .tc main_arg3)) = _
  rw [W4_v0, W4_arg3]

theorem W5_v4 : W5 m ρ c (Proc.devRef .tc main_v4) = val_main_v6 (F := Ideal) (m ((c : Thread nD τ).loc main_arg1)) :=
  (W5_of_ne m ρ c main_v4 (by decide)).trans (W4_v4 m ρ c)
theorem W5_v6 : W5 m ρ c (Proc.devRef .tc main_v6) = val_main_v8 (F := Ideal) (m ((c : Thread nD τ).loc main_arg1)) :=
  (W5_of_ne m ρ c main_v6 (by decide)).trans (W4_v6 m ρ c)
theorem W5_v32 : W5 m ρ c (Proc.devRef .tc main_v32)
    = val_main_v35 (F := Ideal) (m ((c : Thread nD τ).loc main_arg1)) (m ((c : Thread nD τ).loc main_arg2)) :=
  (W5_of_ne m ρ c main_v32 (by decide)).trans (W4_v32 m ρ c)

/-! ## The first aggregation -/

/-- The first projection, of the launch contents. -/
abbrev H1 : (⟨S50000x64, .f32⟩ : BufTy).Contents (Elt Ideal) :=
  Cert.Spec.matProd (Cert.Spec.rowMean (m ((c : Thread nD τ).loc main_arg0))) (m ((c : Thread nD τ).loc main_arg3))

theorem W6_v51 : W6 m ρ c (Proc.devRef .tc main_v51)
    = aggOf (m ((c : Thread nD τ).loc main_arg1)) (m ((c : Thread nD τ).loc main_arg2)) (H1 m c) := by
  show StableHlo.after hostOps2 (W5 m ρ c) (Proc.devRef .tc main_v51) = _
  generalize hV : W5 m ρ c = V
  after_results_simp
  subst hV
  rw [W5_v38, W5_v4, W5_v6, W5_v32]
  rfl

theorem W6_v38 : W6 m ρ c (Proc.devRef .tc main_v38) = H1 m c :=
  (show W6 m ρ c (Proc.devRef .tc main_v38) = W5 m ρ c (Proc.devRef .tc main_v38) by host_keep).trans (W5_v38 m ρ c)
theorem W6_v34 : W6 m ρ c (Proc.devRef .tc main_v34)
    = val_main_v50 (F := Ideal) (m ((c : Thread nD τ).loc main_arg1)) (m ((c : Thread nD τ).loc main_arg2)) :=
  calc W6 m ρ c (Proc.devRef .tc main_v34)
    _ = W5 m ρ c (Proc.devRef .tc main_v34) := by host_keep
    _ = W4 m ρ c (Proc.devRef .tc main_v34) := W5_of_ne m ρ c main_v34 (by decide)
    _ = _ := W4_v34 m ρ c
theorem W6_v35 : W6 m ρ c (Proc.devRef .tc main_v35) = rowOf (m ((c : Thread nD τ).loc main_arg4)) :=
  calc W6 m ρ c (Proc.devRef .tc main_v35)
    _ = W5 m ρ c (Proc.devRef .tc main_v35) := by host_keep
    _ = W4 m ρ c (Proc.devRef .tc main_v35) := W5_of_ne m ρ c main_v35 (by decide)
    _ = _ := W4_v35 m ρ c

/-! ## Region 2: the first combination, and region 3: the second projection -/

/-- The first layer's output, of the launch contents. -/
abbrev O1 : (⟨S50000x64, .f32⟩ : BufTy).Contents (Elt Ideal) :=
  Cert.Spec.combineRelu (aggOf (m ((c : Thread nD τ).loc main_arg1)) (m ((c : Thread nD τ).loc main_arg2)) (H1 m c)) (H1 m c)
    (val_main_v50 (F := Ideal) (m ((c : Thread nD τ).loc main_arg1)) (m ((c : Thread nD τ).loc main_arg2))) (rowOf (m ((c : Thread nD τ).loc main_arg4)))

theorem W7_v52 : W7 m ρ c (Proc.devRef .tc main_v52) = O1 m c := by
  refine (W7_arr m ρ c 4).trans ((Reg2.arr (V6 m ρ) c).trans ?_)
  show Cert.Spec.combineRelu (W6 m ρ c (Proc.devRef .tc main_v51)) (W6 m ρ c (Proc.devRef .tc main_v38))
    (W6 m ρ c (Proc.devRef .tc main_v34)) (W6 m ρ c (Proc.devRef .tc main_v35)) = _
  rw [W6_v51, W6_v38, W6_v34, W6_v35]

/-- The second projection, of the launch contents. -/
abbrev H2 : (⟨S50000x64, .f32⟩ : BufTy).Contents (Elt Ideal) :=
  Cert.Spec.matProd (O1 m c) (m ((c : Thread nD τ).loc main_arg5))

theorem W8_v53 : W8 m ρ c (Proc.devRef .tc main_v53) = H2 m c := by
  refine (W8_arr m ρ c 2).trans ((Reg3.arr (V7 m ρ) c).trans ?_)
  show Cert.Spec.matProd (W7 m ρ c (Proc.devRef .tc main_v52)) (W7 m ρ c (Proc.devRef .tc main_arg5)) = _
  rw [W7_v52, W7_arg5]

/-- A buffer the first layer's last three segments (the aggregation, the combination, the second projection) do not
    write is at the second aggregation what it was at the first. -/
theorem W8_v4 : W8 m ρ c (Proc.devRef .tc main_v4) = val_main_v6 (F := Ideal) (m ((c : Thread nD τ).loc main_arg1)) :=
  calc W8 m ρ c (Proc.devRef .tc main_v4)
    _ = W7 m ρ c (Proc.devRef .tc main_v4) := W8_of_ne m ρ c main_v4 (by decide)
    _ = W6 m ρ c (Proc.devRef .tc main_v4) := W7_of_ne m ρ c main_v4 (by decide)
    _ = W5 m ρ c (Proc.devRef .tc main_v4) := by host_keep
    _ = _ := W5_v4 m ρ c
theorem W8_v6 : W8 m ρ c (Proc.devRef .tc main_v6) = val_main_v8 (F := Ideal) (m ((c : Thread nD τ).loc main_arg1)) :=
  calc W8 m ρ c (Proc.devRef .tc main_v6)
    _ = W7 m ρ c (Proc.devRef .tc main_v6) := W8_of_ne m ρ c main_v6 (by decide)
    _ = W6 m ρ c (Proc.devRef .tc main_v6) := W7_of_ne m ρ c main_v6 (by decide)
    _ = W5 m ρ c (Proc.devRef .tc main_v6) := by host_keep
    _ = _ := W5_v6 m ρ c
theorem W8_v32 : W8 m ρ c (Proc.devRef .tc main_v32)
    = val_main_v35 (F := Ideal) (m ((c : Thread nD τ).loc main_arg1)) (m ((c : Thread nD τ).loc main_arg2)) :=
  calc W8 m ρ c (Proc.devRef .tc main_v32)
    _ = W7 m ρ c (Proc.devRef .tc main_v32) := W8_of_ne m ρ c main_v32 (by decide)
    _ = W6 m ρ c (Proc.devRef .tc main_v32) := W7_of_ne m ρ c main_v32 (by decide)
    _ = W5 m ρ c (Proc.devRef .tc main_v32) := by host_keep
    _ = _ := W5_v32 m ρ c
/-- The column of squared inverse-root degrees is an input of the first combination: the region leaves it as it found it. -/
theorem W8_v34 : W8 m ρ c (Proc.devRef .tc main_v34)
    = val_main_v50 (F := Ideal) (m ((c : Thread nD τ).loc main_arg1)) (m ((c : Thread nD τ).loc main_arg2)) :=
  calc W8 m ρ c (Proc.devRef .tc main_v34)
    _ = W7 m ρ c (Proc.devRef .tc main_v34) := W8_of_ne m ρ c main_v34 (by decide)
    _ = W6 m ρ c (Proc.devRef .tc main_v34) :=
        (W7_arr m ρ c 2).trans (((dat2 (V6 m ρ) c).arrAt_in 2 rfl _).trans (A_eq2 (V6 m ρ) c 2))
    _ = _ := W6_v34 m ρ c
theorem W8_v36 : W8 m ρ c (Proc.devRef .tc main_v36) = rowOf (m ((c : Thread nD τ).loc main_arg6)) :=
  calc W8 m ρ c (Proc.devRef .tc main_v36)
    _ = W7 m ρ c (Proc.devRef .tc main_v36) := W8_of_ne m ρ c main_v36 (by decide)
    _ = W6 m ρ c (Proc.devRef .tc main_v36) := W7_of_ne m ρ c main_v36 (by decide)
    _ = W5 m ρ c (Proc.devRef .tc main_v36) := by host_keep
    _ = W4 m ρ c (Proc.devRef .tc main_v36) := W5_of_ne m ρ c main_v36 (by decide)
    _ = _ := W4_v36 m ρ c
theorem W8_v37 : W8 m ρ c (Proc.devRef .tc main_v37) = rowOf (m ((c : Thread nD τ).loc main_arg8)) :=
  calc W8 m ρ c (Proc.devRef .tc main_v37)
    _ = W7 m ρ c (Proc.devRef .tc main_v37) := W8_of_ne m ρ c main_v37 (by decide)
    _ = W6 m ρ c (Proc.devRef .tc main_v37) := W7_of_ne m ρ c main_v37 (by decide)
    _ = W5 m ρ c (Proc.devRef .tc main_v37) := by host_keep
    _ = W4 m ρ c (Proc.devRef .tc main_v37) := W5_of_ne m ρ c main_v37 (by decide)
    _ = _ := W4_v37 m ρ c

/-! ## The second aggregation, region 4: the second combination, region 5: the output head -/

theorem W9_v66 : W9 m ρ c (Proc.devRef .tc main_v66)
    = aggOf (m ((c : Thread nD τ).loc main_arg1)) (m ((c : Thread nD τ).loc main_arg2)) (H2 m c) := by
  show StableHlo.after hostOps4 (W8 m ρ c) (Proc.devRef .tc main_v66) = _
  generalize hV : W8 m ρ c = V
  after_results_simp
  subst hV
  rw [W8_v53, W8_v4, W8_v6, W8_v32]
  rfl
theorem W9_v53 : W9 m ρ c (Proc.devRef .tc main_v53) = H2 m c :=
  (show W9 m ρ c (Proc.devRef .tc main_v53) = W8 m ρ c (Proc.devRef .tc main_v53) by host_keep).trans (W8_v53 m ρ c)
theorem W9_v34 : W9 m ρ c (Proc.devRef .tc main_v34)
    = val_main_v50 (F := Ideal) (m ((c : Thread nD τ).loc main_arg1)) (m ((c : Thread nD τ).loc main_arg2)) :=
  (show W9 m ρ c (Proc.devRef .tc main_v34) = W8 m ρ c (Proc.devRef .tc main_v34) by host_keep).trans (W8_v34 m ρ c)
theorem W9_v36 : W9 m ρ c (Proc.devRef .tc main_v36) = rowOf (m ((c : Thread nD τ).loc main_arg6)) :=
  (show W9 m ρ c (Proc.devRef .tc main_v36) = W8 m ρ c (Proc.devRef .tc main_v36) by host_keep).trans (W8_v36 m ρ c)

/-- The second layer's output, of the launch contents. -/
abbrev O2 : (⟨S50000x64, .f32⟩ : BufTy).Contents (Elt Ideal) :=
  Cert.Spec.combine (aggOf (m ((c : Thread nD τ).loc main_arg1)) (m ((c : Thread nD τ).loc main_arg2)) (H2 m c)) (H2 m c)
    (val_main_v50 (F := Ideal) (m ((c : Thread nD τ).loc main_arg1)) (m ((c : Thread nD τ).loc main_arg2))) (rowOf (m ((c : Thread nD τ).loc main_arg6)))

theorem W10_v67 : W10 m ρ c (Proc.devRef .tc main_v67) = O2 m c := by
  refine (W10_arr m ρ c 4).trans ((Reg4.arr (V9 m ρ) c).trans ?_)
  show Cert.Spec.combine (W9 m ρ c (Proc.devRef .tc main_v66)) (W9 m ρ c (Proc.devRef .tc main_v53))
    (W9 m ρ c (Proc.devRef .tc main_v34)) (W9 m ρ c (Proc.devRef .tc main_v36)) = _
  rw [W9_v66, W9_v53, W9_v34, W9_v36]

theorem W10_v37 : W10 m ρ c (Proc.devRef .tc main_v37) = rowOf (m ((c : Thread nD τ).loc main_arg8)) :=
  calc W10 m ρ c (Proc.devRef .tc main_v37)
    _ = W9 m ρ c (Proc.devRef .tc main_v37) := W10_of_ne m ρ c main_v37 (by decide)
    _ = W8 m ρ c (Proc.devRef .tc main_v37) := by host_keep
    _ = _ := W8_v37 m ρ c

/-- THE KERNEL'S RESULT: the output head of the second layer's output. -/
theorem W11_v68 : W11 m ρ c (Proc.devRef .tc main_v68)
    = Cert.Spec.affine (O2 m c) (m ((c : Thread nD τ).loc main_arg7)) (rowOf (m ((c : Thread nD τ).loc main_arg8))) := by
  refine (W11_arr m ρ c 3).trans ((Reg5.arr (V10 m ρ) c).trans ?_)
  show Cert.Spec.affine (W10 m ρ c (Proc.devRef .tc main_v67)) (W10 m ρ c (Proc.devRef .tc main_arg7))
    (W10 m ρ c (Proc.devRef .tc main_v37)) = _
  rw [W10_v67, W10_arg7, W10_v37]

/-! ## The two programs' results are one function -/

/-- A bias reshaped into a row is the bias spread into a row: entry (0, c) of either is the bias at c. -/
theorem rowOf_eq (b : (⟨S64, .f32⟩ : BufTy).Contents (Elt Ideal)) : val_main_v54 (F := Ideal) b = rowOf b := by
  funext i
  have h0 : (i 0).val < 1 := (i 0).isLt
  have h1 : (i 1).val < 64 := (i 1).isLt
  rw [val_main_v54_apply]
  refine (shapeCast_apply b shapeCasts_S64_S1x64 i (idx_main_v54 i) ?_).symm
  rewrite [Shape.rowMajor_val_one, Shape.rowMajor_val_two]
  show (i 1).val = (i 0).val * 64 + (i 1).val
  omega

/-- The kernel's result is the reference's result term of the same launch contents. -/
theorem result_eq : W11 m ρ c (Proc.devRef .tc main_v68)
    = val_main_v109 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  rw [W11_v68, Cert.ReferenceIdeal.RefV.result_eq]
  have e4 := rowOf_eq (m ((c : Thread nD τ).loc main_arg4))
  have e6 : val_main_v103 (F := Ideal) (m ((c : Thread nD τ).loc main_arg6)) = rowOf (m ((c : Thread nD τ).loc main_arg6)) := rowOf_eq _
  have e8 : val_main_v107 (F := Ideal) (m ((c : Thread nD τ).loc main_arg8)) = rowOf (m ((c : Thread nD τ).loc main_arg8)) := rowOf_eq _
  rw [e4, e6, e8]
  rfl

end Cert.KernelIdeal.Chain

end
-- ==== Proof.lean ====
/-
  The kernel computes a two-layer graph convolution over the temporal mean of the node features, followed by an affine
  output head, in six TensorCore regions (the mean, three dense products, two combinations) among host operations
  (degrees, edge normalisation, gather and scatter-add); the reference computes the same network with host operations
  only. Over the extended reals the two results are one function of the inputs:

  * each region leaves, in its output array, a function of `Cert.Spec` of the arrays it finds (`Reg0` … `Reg5`: what a
    grid point writes back is its block of that function, and the blocks tile the array);
  * the reference's dense operations are the same functions entry by entry (`RefValue`): a sum over the last axis from
    the zero initial value, a matrix product as a sum over k, a column and a row spread over a matrix;
  * the host operations between the regions are the reference's own operations of the same inputs, so the kernel's
    buffers at each boundary are the reference's stages (`KChain`), and the kernel's result is the reference's.

  The frames of the two kernel programs are the generated ones; the reference's is its generated run with the result
  dropped; no rewrite was applied by the ideal pass, so `preserves` asks nothing.
-/
import proofs.«426108_j58506044506790_3_alg».proof.Defs
import proofs.«426108_j58506044506790_3_alg».proof.Proof.Gen.Kernel
import proofs.«426108_j58506044506790_3_alg».proof.Proof.Gen.Kernel.Frame
import proofs.«426108_j58506044506790_3_alg».proof.Proof.Gen.KernelIdeal
import proofs.«426108_j58506044506790_3_alg».proof.Proof.Gen.KernelIdeal.Frame
import proofs.«426108_j58506044506790_3_alg».proof.Proof.Gen.ReferenceIdeal
import proofs.«426108_j58506044506790_3_alg».proof.Proof.Gen.Pre_finite_inputs
import proofs.«426108_j58506044506790_3_alg».proof.Proof.Gen.ReferenceIdeal.Run
import proofs.«426108_j58506044506790_3_alg».proof.Proof.Gen.ReferenceIdeal.Read
import proofs.«426108_j58506044506790_3_alg».proof.Proof.KernelRun
import proofs.«426108_j58506044506790_3_alg».proof.Proof.KChain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the nine arguments both programs run and end with one result: the kernel's result
    array at the last boundary's contents, which is the reference's result term of the same arguments. -/
theorem algebraic : Cert.algebraic_KernelIdeal_ReferenceIdeal := by
  intro m ρ m' ρ' _ hagree
  refine ⟨fun c => Cert.KernelIdeal.Gen.W11 m ρ c (Proc.devRef .tc Cert.KernelIdeal.main_v68),
    Cert.KernelIdeal.RunV.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v109_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1, (hagree c).2.2.2.2.2.2.2.2]
  exact (Cert.KernelIdeal.Chain.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
